-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S32x16 : Shape := ⟨2, ![32, 16]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S1024x1024 .f32) (main_arg5 : FVec F S32x16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S32x16 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S32x16 : Shape := ⟨2, ![32, 16]⟩
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S16x32 : Shape := ⟨2, ![16, 32]⟩
abbrev S2048x2048x1 : Shape := ⟨3, ![2048, 2048, 1]⟩
abbrev S16x2048x2048 : Shape := ⟨3, ![16, 2048, 2048]⟩
abbrev S512x128 : Shape := ⟨2, ![512, 128]⟩
abbrev S4096x128 : Shape := ⟨2, ![4096, 128]⟩
abbrev S2x512x2048 : Shape := ⟨3, ![2, 512, 2048]⟩
abbrev S512x64 : Shape := ⟨2, ![512, 64]⟩
abbrev S2048x64 : Shape := ⟨2, ![2048, 64]⟩
abbrev S512x2048 : Shape := ⟨2, ![512, 2048]⟩
abbrev S1x512x2048 : Shape := ⟨3, ![1, 512, 2048]⟩
abbrev S512 : Shape := ⟨1, ![512]⟩
abbrev S512x1 : Shape := ⟨2, ![512, 1]⟩

abbrev nBuf : Space → Nat
  | .hbm => 70
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32x16, .f32⟩
  | .hbm, ⟨6, _⟩ => ⟨S4096x1024, .f32⟩
  | .hbm, ⟨7, _⟩ => ⟨S4096x1024, .bf16⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S4096x3072, .bf16⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i1⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S_, .i32⟩
  | .hbm, ⟨50, _⟩ => ⟨S2048x2048, .i32⟩
  | .hbm, ⟨51, _⟩ => ⟨S2048x2048, .i32⟩
  | .hbm, ⟨52, _⟩ => ⟨S2048x2048, .i32⟩
  | .hbm, ⟨53, _⟩ => ⟨S2048x2048, .i32⟩
  | .hbm, ⟨54, _⟩ => ⟨S16x32, .f32⟩
  | .hbm, ⟨55, _⟩ => ⟨S16x32, .bf16⟩
  | .hbm, ⟨56, _⟩ => ⟨S_, .i32⟩
  | .hbm, ⟨57, _⟩ => ⟨S2048x2048, .i32⟩
  | .hbm, ⟨58, _⟩ => ⟨S2048x2048, .i1⟩
  | .hbm, ⟨59, _⟩ => ⟨S_, .i32⟩
  | .hbm, ⟨60, _⟩ => ⟨S2048x2048, .i32⟩
  | .hbm, ⟨61, _⟩ => ⟨S2048x2048, .i32⟩
  | .hbm, ⟨62, _⟩ => ⟨S2048x2048, .i32⟩
  | .hbm, ⟨63, _⟩ => ⟨S2048x2048x1, .i32⟩
  | .hbm, ⟨64, _⟩ => ⟨S16x2048x2048, .bf16⟩
  | .hbm, ⟨65, _⟩ => ⟨S4096x1024, .bf16⟩
  | .hbm, ⟨66, _⟩ => ⟨S1024x1024, .f32⟩
  | .hbm, ⟨67, _⟩ => ⟨S1024x1024, .bf16⟩
  | .hbm, ⟨68, _⟩ => ⟨S4096x1024, .f32⟩
  | .hbm, ⟨69, _⟩ => ⟨S2x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S512x128, .bf16⟩
  | .local _ .vmem, ⟨6, _⟩ => ⟨S512x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S2x512x2048, .bf16⟩
  | .local _ .vmem, ⟨12, _⟩ => ⟨S2x512x2048, .bf16⟩
  | .local _ .vmem, ⟨13, _⟩ => ⟨S512x128, .bf16⟩
  | .local _ .vmem, ⟨14, _⟩ => ⟨S512x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 2], ![false, false, false]⟩

def k1_mult1 (i : grid1.Coords) : BitVec 32 :=
  let arg2 : BitVec 32 := BitVec.ofNat 32 (i 2).val
  let c2048_i32 : BitVec 32 := 2048#32
  let v0 : BitVec 32 := Scalar.muli arg2 c2048_i32
  v0
def k1_off1 (i : grid1.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v4 : Index := Scalar.indexCast v1
  let c0_1 : Index := 0#32
  ![v4.toNat, 0]
def k1_off2 (i : grid1.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v32 : Index := Scalar.indexCast v1
  let c64_13 : Index := 64#32
  ![v32.toNat, 64]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![v1.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let v1 : BitVec 32 := Scalar.addi v0 arg1
  let c0_i32 : BitVec 32 := 0#32
  ![v1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S2x512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  bitsLt_bf16_f32 : FTy.bits .bf16 < FTy.bits .f32
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  natLt_1_32 : 1 < 32
  transposes_S32x16_S16x32_1_0 : S32x16.Transposes [1, 0] S16x32
  bcast_S2048x2048_S2048x2048x1_0_1 : S2048x2048.BroadcastsInDim S2048x2048x1 (![0, 1] : Fin 2 → Fin S2048x2048x1.rank)
  inb_S512x128_S512x64_0_0 : ∀ a, (![0, 0] : Fin 2 → Nat) a + S512x64.size a ≤ S512x128.size a
  h_S512x64 : 0 < S512x64.numel
  shapeCasts_S512x64_S512x64 : S512x64.ShapeCasts S512x64
  h_S2048x64 : 0 < S2048x64.numel
  shapeCasts_S2048x64_S2048x64 : S2048x64.ShapeCasts S2048x64
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  packedbf16_S512x128_S512x64_0_0 : (Rect.unit (s := S512x128) ![0, 0] S512x64.size inb_S512x128_S512x64_0_0).PackedRows (EltTy.packing .bf16)
  inb_S512x128_S512x64_0_64 : ∀ a, (![0, 64] : Fin 2 → Nat) a + S512x64.size a ≤ S512x128.size a
  inb_S2x512x2048_S1x512x2048_1_0_0 : ∀ a, (![1, 0, 0] : Fin 3 → Nat) a + S1x512x2048.size a ≤ S2x512x2048.size a
  packedbf16_S512x128_S512x64_0_64 : (Rect.unit (s := S512x128) ![0, 64] S512x64.size inb_S512x128_S512x64_0_64).PackedRows (EltTy.packing .bf16)
  transposes_S1024x1024_S1024x1024_1_0 : S1024x1024.Transposes [1, 0] S1024x1024
  shapeCasts_S4096x1024_S2x2048x1024 : S4096x1024.ShapeCasts S2x2048x1024
  dot_S1024x1024_S1024x3072_S1024x3072_1_0_0_1_n_n_wf : DotDims.WF S1024x1024 S1024x3072 S1024x3072 [1] [0] [0] [1] [] []
  gather_S16x32_S2048x2048x1_S16x2048x2048_0_1_n_n_1_2_161_wf : GatherDims.WF S16x32 S2048x2048x1 S16x2048x2048 [0] [1] [] [1] [] 2 ![16, 1]
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S4096x3072.size a
  hwx0_2 : ∀ i : grid0.Coords, EltTy.bits .bf16 = 32 ∨ (Rect.block (s := S4096x3072) S1024x3072.size (cc0_transform_2 i) (hinb0_2 i)).WholeWords (EltTy.packing .bf16)
  hrank1 : 0 < grid1.rank
  k1_mult1_dvd : ∀ i : grid1.Coords, 2048 ∣ (k1_mult1 i).toNat
  k1_off1_inb : ∀ i : grid1.Coords, ∀ a, (k1_off1 i) a + S2048x64.size a ≤ S4096x128.size a
  k1_off2_inb : ∀ i : grid1.Coords, ∀ a, (k1_off2 i) a + S2048x64.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x3072.size a
  hwx1_0 : ∀ i : grid1.Coords, EltTy.bits .bf16 = 32 ∨ (Rect.block (s := S4096x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x3072.size a
  hwx1_1 : ∀ i : grid1.Coords, EltTy.bits .bf16 = 32 ∨ (Rect.block (s := S4096x3072) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S4096x3072.size a
  hwx1_2 : ∀ i : grid1.Coords, EltTy.bits .bf16 = 32 ∨ (Rect.block (s := S4096x3072) S4096x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x2048.size a ≤ S16x2048x2048.size a
  hwx1_3 : ∀ i : grid1.Coords, EltTy.bits .bf16 = 32 ∨ (Rect.block (s := S16x2048x2048) S2x512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x1024.size a
  hwx1_4 : ∀ i : grid1.Coords, EltTy.bits .bf16 = 32 ∨ (Rect.block (s := S4096x1024) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def gather_S16x32_S2048x2048x1_S16x2048x2048_0_1_n_n_1_2_161 : GatherDims S16x32 S2048x2048x1 S16x2048x2048 where
  offsetDims := [0]
  collapsedSliceDims := [1]
  operandBatchingDims := []
  startIndicesBatchingDims := []
  startIndexMap := [1]
  indexVectorDim := 2
  sliceSizes := ![16, 1]
  wf := gather_S16x32_S2048x2048x1_S16x2048x2048_0_1_n_n_1_2_161_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S32x16 : Shape := ⟨2, ![32, 16]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S2x16x2048 : Shape := ⟨3, ![2, 16, 2048]⟩
abbrev S2x16x2048x1 : Shape := ⟨4, ![2, 16, 2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32x16, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S2048x2048, .i32⟩
  | .hbm, ⟨31, _⟩ => ⟨S_, .i32⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S_, .i32⟩
  | .hbm, ⟨57, _⟩ => ⟨S2048x2048, .i32⟩
  | .hbm, ⟨58, _⟩ => ⟨S2048x2048, .i32⟩
  | .hbm, ⟨59, _⟩ => ⟨S2048x2048, .i32⟩
  | .hbm, ⟨60, _⟩ => ⟨S2048x2048, .i32⟩
  | .hbm, ⟨61, _⟩ => ⟨S_, .i32⟩
  | .hbm, ⟨62, _⟩ => ⟨S2048x2048, .i32⟩
  | .hbm, ⟨63, _⟩ => ⟨S2048x2048, .i1⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S2048x2048, .i32⟩
  | .hbm, ⟨68, _⟩ => ⟨S2048x2048x1, .i32⟩
  | .hbm, ⟨69, _⟩ => ⟨S2048x2048x16, .f32⟩
  | .hbm, ⟨70, _⟩ => ⟨S16x2048x2048, .f32⟩
  | .hbm, ⟨71, _⟩ => ⟨S1x16x2048x2048, .f32⟩
  | .hbm, ⟨72, _⟩ => ⟨S2x16x2048x2048, .f32⟩
  | .hbm, ⟨73, _⟩ => ⟨S2x16x2048x2048, .f32⟩
  | .hbm, ⟨74, _⟩ => ⟨S_, .f32⟩
  | .hbm, ⟨75, _⟩ => ⟨S2x16x2048, .f32⟩
  | .hbm, ⟨76, _⟩ => ⟨S_, .f32⟩
  | .hbm, ⟨77, _⟩ => ⟨S2x16x2048, .f32⟩
  | .hbm, ⟨78, _⟩ => ⟨S2x16x2048, .f32⟩
  | .hbm, ⟨79, _⟩ => ⟨S2x16x2048x1, .f32⟩
  | .hbm, ⟨80, _⟩ => ⟨S2x16x2048x2048, .f32⟩
  | .hbm, ⟨81, _⟩ => ⟨S2x16x2048x2048, .f32⟩
  | .hbm, ⟨82, _⟩ => ⟨S2x16x2048x2048, .f32⟩
  | .hbm, ⟨83, _⟩ => ⟨S_, .f32⟩
  | .hbm, ⟨84, _⟩ => ⟨S2x16x2048, .f32⟩
  | .hbm, ⟨85, _⟩ => ⟨S2x16x2048x1, .f32⟩
  | .hbm, ⟨86, _⟩ => ⟨S2x16x2048x2048, .f32⟩
  | .hbm, ⟨87, _⟩ => ⟨S2x16x2048x2048, .f32⟩
  | .hbm, ⟨88, _⟩ => ⟨S2x16x2048x64, .f32⟩
  | .hbm, ⟨89, _⟩ => ⟨S2x2048x16x64, .f32⟩
  | .hbm, ⟨90, _⟩ => ⟨S2x2048x1024, .f32⟩
  | .hbm, ⟨91, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  natLt_1_32 : 1 < 32
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  gather_S32x16_S2048x2048x1_S2048x2048x16_2_0_n_n_0_2_116_wf : GatherDims.WF S32x16 S2048x2048x1 S2048x2048x16 [2] [0] [] [0] [] 2 ![1, 16]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def gather_S32x16_S2048x2048x1_S2048x2048x16_2_0_n_n_0_2_116 : GatherDims S32x16 S2048x2048x1 S2048x2048x16 where
  offsetDims := [2]
  collapsedSliceDims := [0]
  operandBatchingDims := []
  startIndicesBatchingDims := []
  startIndexMap := [0]
  indexVectorDim := 2
  sliceSizes := ![1, 16]
  wf := gather_S32x16_S2048x2048x1_S2048x2048x16_2_0_n_n_0_2_116_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KBody0.lean ====
/-
  Region 0 of the program (the projection x · [Wq; Wk; Wv]ᵀ, one 1024-row block of x per grid point against the
  whole 1024×3072 weight) as a pipeline body, at any float instance and at any contents `V` of the device's buffers
  when the region is entered: the block of each window at a point, what the body leaves in the output window's
  staging buffer (its one store, covering the buffer), the body's triple, the pipeline's proof data and the
  obligation at every point.
-/
import proofs.«401496_j88184268521511_3_alg».proof.Proof.Gen.Kernel.Launch
import proofs.«401496_j88184268521511_3_alg».proof.Proof.Gen.Kernel.Skeleton
import proofs.«401496_j88184268521511_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window whose block index
    does not move keeps the block it was first given): the x window, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- and the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each buffer: the whole of it. -/
abbrev rX0 : Rect S1024x1024 := Rect.unit (s := S1024x1024) ![0, 0] S1024x1024.size inb_S1024x1024_S1024x1024_0_0
abbrev rW0 : Rect S1024x3072 := Rect.unit (s := S1024x3072) ![0, 0] S1024x3072.size inb_S1024x3072_S1024x3072_0_0

/-- The output window's staging buffer after the body: the product of the x block and the weight block, stored whole. -/
def out0_2 (x0 : Vec F S1024x1024 .bf16) (x1 : Vec F S1024x3072 .bf16) : Vec F S1024x3072 .bf16 :=
  View.canon [⟨rW0, k0_pay1 (View.ld x0 rX0) (View.ld x1 rW0)⟩]

/-- The store covers the buffer. -/
theorem cover0_2 (p0 : Vec F S1024x3072 .bf16) (y : S1024x3072.Idx) :
    ∃ pc ∈ ([⟨rW0, p0⟩] : List (View.Piece (Elt F) S1024x3072 .bf16)), y ∈ pc.1.set :=
  View.cover_of_tiled [⟨rW0, p0⟩] S1024x3072.size (by rfl) y

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  Region 1 of the program (attention, two heads per grid point: point (hp, qi, bb) takes 512 query rows of batch bb,
  the whole 4096-row key and value column blocks of head pair hp, the two heads' 512×2048 bias tiles, and writes the
  512×128 output block) as a pipeline body, at any float instance and at any contents `V` of the device's buffers when
  the region is entered. The query, key and value windows all read ONE array, the projection's result: the region
  holds that array in three shares, one per window. The body reads rows bb·2048 … bb·2048+2047 of the key and value
  blocks (the batch's own rows) and writes the two heads' 512×64 results side by side, which tile the output block.
-/
import proofs.«401496_j88184268521511_3_alg».proof.Proof.Gen.Kernel.Launch
import proofs.«401496_j88184268521511_3_alg».proof.Proof.Gen.Kernel.Skeleton
import proofs.«401496_j88184268521511_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block index
    does not move between two points keeps the block it was given): the query window, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the key window, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the value window, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and the bias window. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: the two heads' 64-column halves of a 512×128 block (the query block's and the
    output block's alike), -/
abbrev rLo : Rect S512x128 := Rect.unit (s := S512x128) ![0, 0] S512x64.size inb_S512x128_S512x64_0_0
abbrev rHi : Rect S512x128 := Rect.unit (s := S512x128) ![0, 64] S512x64.size inb_S512x128_S512x64_0_64
/-- the batch's 2048 rows of a key or value block, one head's 64 columns, -/
abbrev rKlo (i : grid1.Coords) : Rect S4096x128 := Rect.unit (s := S4096x128) (k1_off1 i) S2048x64.size (k1_off1_inb i)
abbrev rKhi (i : grid1.Coords) : Rect S4096x128 := Rect.unit (s := S4096x128) (k1_off2 i) S2048x64.size (k1_off2_inb i)
/-- and each head's bias tile. -/
abbrev rB0 : Rect S2x512x2048 := Rect.unit (s := S2x512x2048) ![0, 0, 0] S1x512x2048.size inb_S2x512x2048_S1x512x2048_0_0_0
abbrev rB1 : Rect S2x512x2048 := Rect.unit (s := S2x512x2048) ![1, 0, 0] S1x512x2048.size inb_S2x512x2048_S1x512x2048_1_0_0

/-- The output window's staging buffer after the body at grid coordinates `i`: the second head's result over columns
    64…127 and the first head's over columns 0…63 (the later store first). -/
def out1_4 (i : grid1.Coords) (x0 : Vec F S512x128 .bf16) (x1 x2 : Vec F S4096x128 .bf16) (x3 : Vec F S2x512x2048 .bf16) : Vec F S512x128 .bf16 :=
  View.canon [⟨rHi, k1_pay1 (k1_pay3 (View.ld x0 rHi)) (k1_pay4 (View.ld x1 (rKhi i))) (View.ld x2 (rKhi i)) (View.ld x3 rB1)⟩,
    ⟨rLo, k1_pay2 (View.ld x0 rLo) (View.ld x1 (rKlo i)) (View.ld x2 (rKlo i)) (View.ld x3 rB0)⟩]

/-- The two stores tile the buffer. -/
theorem cover1_4 (p1 p0 : Vec F S512x64 .bf16) (y : S512x128.Idx) :
    ∃ pc ∈ ([⟨rHi, p1⟩, ⟨rLo, p0⟩] : List (View.Piece (Elt F) S512x128 .bf16)), y ∈ pc.1.set :=
  View.cover_of_tiled [⟨rHi, p1⟩, ⟨rLo, p0⟩] S512x64.size (by rfl) y

set_option maxHeartbeats 4000000 in
/-- The body on whole staging memrefs, the inputs' at read contents `x0 … x3` and the output's at anything, runs to the
    continuation holding the inputs' as they were and the output's at `out1_4 i x0 x1 x2 x3`. -/
theorem sound_kernel1 (c : Dev nD) (E : Set ℕ) (i : grid1.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S2x512x2048 .bf16) (harg6 : arg6.IsWhole)
    (arg7 : Memref sig .tc .vmem S512x128 .bf16) (harg7 : arg7.IsWhole)
    (x0 : Vec F S512x128 .bf16) (x1 x2 : Vec F S4096x128 .bf16) (x3 : Vec F S2x512x2048 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out1_4 i x0 x1 x2 x3)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _)

/-- The proof data of pipeline 1 on core `c`: the arrays as the region finds them; after the body at point `t` each
    input's buffer at its block and the output's at `out1_4` of the input blocks; the projection's array held in three
    shares, one per window that reads it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  Region 2 of the program (the output projection a · Woᵀ, one 1024-row block of a per grid point against the
  whole 1024×1024 weight) as a pipeline body, at any float instance and at any contents `V` of the device's buffers
  when the region is entered: the block of each window at a point, what the body leaves in the output window's
  staging buffer (its one store, covering the buffer), the body's triple, the pipeline's proof data and the
  obligation at every point.
-/
import proofs.«401496_j88184268521511_3_alg».proof.Proof.Gen.Kernel.Launch
import proofs.«401496_j88184268521511_3_alg».proof.Proof.Gen.Kernel.Skeleton
import proofs.«401496_j88184268521511_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window whose block index
    does not move keeps the block it was first given): the x window, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- and the weight window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each buffer: the whole of it. -/
abbrev rX2 : Rect S1024x1024 := Rect.unit (s := S1024x1024) ![0, 0] S1024x1024.size inb_S1024x1024_S1024x1024_0_0
abbrev rW2 : Rect S1024x1024 := Rect.unit (s := S1024x1024) ![0, 0] S1024x1024.size inb_S1024x1024_S1024x1024_0_0

/-- The output window's staging buffer after the body: the product of the x block and the weight block, stored whole. -/
def out2_2 (x0 : Vec F S1024x1024 .bf16) (x1 : Vec F S1024x1024 .bf16) : Vec F S1024x1024 .f32 :=
  View.canon [⟨rW2, k2_pay1 (View.ld x0 rX2) (View.ld x1 rW2)⟩]

/-- The store covers the buffer. -/
theorem cover2_2 (p0 : Vec F S1024x1024 .f32) (y : S1024x1024.Idx) :
    ∃ pc ∈ ([⟨rW2, p0⟩] : List (View.Piece (Elt F) S1024x1024 .f32)), y ∈ pc.1.set :=
  View.cover_of_tiled [⟨rW2, p0⟩] S1024x1024.size (by rfl) y

set_option maxHeartbeats 1000000 in
/-- The body on whole staging memrefs, the inputs' at read contents `x0`, `x1` and the output's at anything, runs to
    the continuation holding the inputs' as they were and the output's at `out2_2 x0 x1`. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KVals.lean ====
/-
  The contents of a core's unscoped buffers at each boundary between two items of @main, folded from the launch
  memory: a host stretch applies its operations' pure functions; a kernel region leaves every buffer as it found it
  except its output window's array, which ends at what the pipeline's write-backs leave (the proof data's array after
  the last grid point). Then the proof data of the three pipelines, each at its region's entry contents, and what
  rides beside the buffers through every item.
-/
import proofs.«401496_j88184268521511_3_alg».proof.Proof.KBody0
import proofs.«401496_j88184268521511_3_alg».proof.Proof.KBody1
import proofs.«401496_j88184268521511_3_alg».proof.Proof.KBody2
import proofs.«401496_j88184268521511_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Core `c`'s buffers at launch, -/
abbrev W0 : Dev nD → Valuation τ sig (Elt F) := fun c b => m (c, b)
/-- after the first host stretch (the reshape and conversions that make x and the stacked, transposed weights), -/
abbrev W1 : Dev nD → Valuation τ sig (Elt F) := fun c => StableHlo.after hostOps0 (W0 m c)
/-- the same read at the TensorCore's references: what region 0 is entered from, -/
abbrev E1 : (c : Dev nD) → (b : Ref sig .tc) → Buf (Elt F) ((c : Thread nD τ).loc b) := fun c b => W1 m c b
/-- after region 0, which writes the projection `main_v5`, -/
def W2 (c : Dev nD) : Valuation τ sig (Elt F) :=
  Function.update (W1 m c) main_v5 ((dat0 (E1 m) c).arrAt 2 cfg0.N)
/-- after the three host stretches that compute the relative-position buckets and gather the bias, -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
/-- after region 1, which writes the attention output `main_v48`, -/
def W6 (c : Dev nD) : Valuation τ sig (Elt F) :=
  Function.update (W5 m c) main_v48 ((dat1 (E5 m) c).arrAt 4 cfg1.N)
/-- after the host stretch that transposes the output weight, -/
abbrev W7 : Dev nD → Valuation τ sig (Elt F) := fun c => StableHlo.after hostOps2 (W6 m c)
abbrev E7 : (c : Dev nD) → (b : Ref sig .tc) → Buf (Elt F) ((c : Thread nD τ).loc b) := fun c b => W7 m c b
/-- after region 2, which writes the output projection `main_v51`, -/
def W8 (c : Dev nD) : Valuation τ sig (Elt F) :=
  Function.update (W7 m c) main_v51 ((dat2 (E7 m) c).arrAt 2 cfg2.N)
/-- and after the closing reshape. -/
abbrev W9 : Dev nD → Valuation τ sig (Elt F) := fun c => StableHlo.after hostOps3 (W8 m c)
abbrev E2 : (c : Dev nD) → (b : Ref sig .tc) → Buf (Elt F) ((c : Thread nD τ).loc b) := fun c b => W2 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v5] : List (Ref sig .tc))) : W2 m c r = W1 m c r := by
  simp only [W2, Function.update_of_ne (StableHlo.devRef_ne_of_ne (List.ne_of_not_mem_cons h) : (Proc.devRef .tc r : DevRef τ sig) ≠ Proc.devRef .tc main_v5)]
theorem W2_self (c : Dev nD) : W2 m c main_v5 = (dat0 (E1 m) c).arrAt 2 cfg0.N := by
  simp only [W2, Function.update_self]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ∉ ([main_v48] : List (Ref sig .tc))) : W6 m c r = W5 m c r := by
  simp only [W6, Function.update_of_ne (StableHlo.devRef_ne_of_ne (List.ne_of_not_mem_cons h) : (Proc.devRef .tc r : DevRef τ sig) ≠ Proc.devRef .tc main_v48)]
theorem W6_self (c : Dev nD) : W6 m c main_v48 = (dat1 (E5 m) c).arrAt 4 cfg1.N := by
  simp only [W6, Function.update_self]
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ ([main_v51] : List (Ref sig .tc))) : W8 m c r = W7 m c r := by
  simp only [W8, Function.update_of_ne (StableHlo.devRef_ne_of_ne (List.ne_of_not_mem_cons h) : (Proc.devRef .tc r : DevRef τ sig) ≠ Proc.devRef .tc main_v51)]
theorem W8_self (c : Dev nD) : W8 m c main_v51 = (dat2 (E7 m) c).arrAt 2 cfg2.N := by
  simp only [W8, Function.update_self]
theorem W9_of (c : Dev nD) (r : Ref sig .tc) (h : r ∉ hostOps3_W) : W9 m c r = W8 m c r :=
  StableHlo.after_of_writes_sub hostOps3 _ hostOps3_writes h

/-- A reference that no host stretch writes and that is no region's output array reaches the end as launched. -/
theorem W9_of_launch (c : Dev nD) (r : Ref sig .tc) (h0 : r ∉ hostOps0_W) (h1 : r ∉ hostOps1_W) (h11 : r ∉ hostOps1_1_W) (h12 : r ∉ hostOps1_2_W)
    (h2 : r ∉ hostOps2_W) (h3 : r ∉ hostOps3_W) (h5 : r ∉ ([main_v5] : List (Ref sig .tc))) (h48 : r ∉ ([main_v48] : List (Ref sig .tc)))
    (h51 : r ∉ ([main_v51] : List (Ref sig .tc))) : W9 m c r = m ((c : Thread nD τ).loc r) :=
  (W9_of m c r h3).trans <| (W8_of m c r h51).trans <| (W7_of m c r h2).trans <| (W6_of m c r h48).trans <| (W5_of m c r h12).trans <|
    (W4_of m c r h11).trans <| (W3_of m c r h1).trans <| (W2_of m c r h5).trans <| (W1_of m c r h0).trans rfl

/-! ## The proof data family and what rides beside the buffers -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state and its `owes`, at nothing. -/
abbrev R (c : Dev nD) : sProp 𝕄 := iprop((∃ r, prngReg c r) ∗ ∃ W, owes (c : Thread nD τ) (0 : CellTallies nD τ sig Unit) W)
/-- The thread state between two items: every unscoped buffer at the boundary's contents, and `R`. -/
abbrev St (W : Dev nD → Valuation τ sig (Elt F)) (c : Dev nD) : sProp 𝕄 :=
  iprop(StableHlo.held (c : Thread nD τ) (Pipeline.ucRefs τ sig) (W c) ∗ R c)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KSeg0.lean ====
/-
  Region 0 (the projection) as a segment of @main: the pipeline's layout, its body obligation, and the four entailments that
  take the thread state before the region to the pipeline's resources and back to the thread state after it.
-/
import proofs.«401496_j88184268521511_3_alg».proof.Proof.KVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- At the region's exit each of its arrays holds what the pipeline leaves: the inputs as entered, the output what the
    write-backs made of it; -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (W2_of m c _ (by decide)).symm
  | ⟨1, _⟩ => exact (((dat0 (E1 m) c).arrAt_in 1 rfl _).trans (A_eq0 (E1 m) c 1)).trans (W2_of m c _ (by decide)).symm
  | ⟨2, _⟩ => exact (W2_self m c).symm
/-- every other buffer holds what it held at entry. -/
theorem hrest0 (c : Dev nD) : ∀ b, b ∉ Finset.univ.image (Pipeline.arrRef spec0) → E2 m c b = E1 m c b :=
  fun b hb => W2_of m c b (by
    intro h
    rw [List.mem_singleton] at h
    exact hb (Finset.mem_image.mpr ⟨2, Finset.mem_univ _, h.symm⟩))

set_option backward.isDefEq.respectTransparency.types false in
/-- The region over the thread state: entered from every unscoped buffer at `W1`, left at `W2`. Its arrays are
    split out of the unscoped buffers at entry and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := St (W1 m) c
  post c := St (W2 m) c
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg1.lean ====
/-
  Region 1 (attention) as a segment of @main: the pipeline's layout, its body obligation, and the four entailments that take
  the thread state before the region to the pipeline's resources and back. Its query, key and value windows read ONE array,
  the projection `main_v5`: at entry that array's full share is dealt to the three windows (a half, a quarter, a quarter),
  at exit the three shares — each still at the entry contents, an input array being never written — are joined again.
-/
import proofs.«401496_j88184268521511_3_alg».proof.Proof.KVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Arrays

variable (V : (c : Dev nD) → (b : Ref sig .tc) → Buf (Elt F) ((c : Thread nD τ).loc b))

/-- The region's windows read three arrays: the projection (windows 0, 1, 2), the bias (window 3), the output (window 4). -/
theorem img1 : (Finset.univ.image (Pipeline.arrRef spec1) : Finset (Ref sig .tc)) = {main_v5, main_v47, main_v48} := by decide

/-- The buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v47) ↦{fullShare} V' main_v47)
          ∗ (((c : Thread nD τ).loc main_v48) ↦{fullShare} V' main_v48)) := by
  unfold Pipeline.arrBufs
  rw [img1, bigSep_insert (by decide), bigSep_insert (by decide), bigSep_singleton]
  rfl

set_option backward.isDefEq.respectTransparency.types false in
/-- A window's array, a whole buffer, held at the window's share at contents read off a valuation. -/
theorem win_pt1 (c : Dev nD) (V' : (b : Ref sig .tc) → Buf (Elt F) ((c : Thread nD τ).loc b))
    (G : (w : Fin cfg1.W) → Buf (Elt F) ((cfg1.win w).arr.view.loc (c : Thread nD τ)))
    (w : Fin cfg1.W) (s : PosShare TreeShare) (hs : (dat1 V c).share w = s) (hG : G w = V' (Pipeline.arrRef spec1 w)) :
    ((cfg1.win w).arr.view.loc (c : Thread nD τ) ↦[(cfg1.win w).arr.view.set]{(dat1 V c).share w} G w : sProp 𝕄)
      = ((c : Thread nD τ).loc (Pipeline.arrRef spec1 w) ↦{s} V' (Pipeline.arrRef spec1 w)) := by
  rw [(arr_whole1 w).set_eq_univ, hs, hG]

set_option backward.isDefEq.respectTransparency.types false in
/-- The pipeline's arrays at contents read off a valuation, window by window. -/
theorem arrays1_eq (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄)
      = iprop((((c : Thread nD τ).loc main_v5) ↦{fullShare.left} V' main_v5) ∗ (((c : Thread nD τ).loc main_v5) ↦{fullShare.right.left} V' main_v5)
          ∗ (((c : Thread nD τ).loc main_v5) ↦{fullShare.right.right} V' main_v5)
          ∗ (((c : Thread nD τ).loc main_v47) ↦{fullShare} V' main_v47) ∗ (((c : Thread nD τ).loc main_v48) ↦{fullShare} V' main_v48)) := by
  unfold Dat.arrays
  rw [bigSep_W1, win_pt1 V c V' G 0 fullShare.left rfl (hG 0), win_pt1 V c V' G 1 fullShare.right.left rfl (hG 1),
    win_pt1 V c V' G 2 fullShare.right.right rfl (hG 2), win_pt1 V c V' G 3 fullShare rfl (hG 3), win_pt1 V c V' G 4 fullShare rfl (hG 4)]

/-- The projection's array at the full share is the three windows' shares of it. -/
theorem share3 (c : Dev nD) (f : Buf (Elt F) ((c : Thread nD τ).loc main_v5)) :
    ((((c : Thread nD τ).loc main_v5) ↦{fullShare} f : sProp 𝕄))
      ⊣⊢ iprop((((c : Thread nD τ).loc main_v5) ↦{fullShare.left} f) ∗ (((c : Thread nD τ).loc main_v5) ↦{fullShare.right.left} f)
          ∗ (((c : Thread nD τ).loc main_v5) ↦{fullShare.right.right} f)) := by
  have h1 := pointsTo_share (Ix := Unit) (Name := ℕ) (U := UR sig nD τ) (Lvl := ℕ) (Val := Elt F) (ℓ := (c : Thread nD τ).loc main_v5) (I := Finset.univ) (f := f)
    (PosShare.mem_left_op_right fullShare)
  have h2 := pointsTo_share (Ix := Unit) (Name := ℕ) (U := UR sig nD τ) (Lvl := ℕ) (Val := Elt F) (ℓ := (c : Thread nD τ).loc main_v5) (I := Finset.univ) (f := f)
    (PosShare.mem_left_op_right fullShare.right)
  constructor
  · iintro H5
    ihave H := h1.1 $$ H5
    icases H with ⟨Ha, Hb⟩
    ihave H := h2.1 $$ Hb
    icases H with ⟨Hb, Hc⟩
    isplitl [Ha]; · iexact Ha
    isplitl [Hb]; · iexact Hb
    iexact Hc
  · iintro ⟨Ha, Hb, Hc⟩
    iapply h1.2
    isplitl [Ha]; · iexact Ha
    iapply h2.2
    isplitl [Hb]; · iexact Hb
    iexact Hc

/-- ENTRY, the arrays: the buffers behind the windows' arrays, whole at the full share, are the pipeline's arrays, the
    projection's full share dealt to the query, key and value windows. -/
theorem arrays_of_arrBufs1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq, arrays1_eq V c V' G hG]
  iintro ⟨H5, H47, H48⟩
  ihave H := (share3 c (V' main_v5)).1 $$ H5
  icases H with ⟨Ha, Hb, Hc⟩
  isplitl [Ha]; · iexact Ha
  isplitl [Hb]; · iexact Hb
  isplitl [Hc]; · iexact Hc
  isplitl [H47]; · iexact H47
  iexact H48

/-- EXIT, the arrays: the three shares joined again. -/
theorem arrBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrBufs1_eq, arrays1_eq V c V' G hG]
  iintro ⟨Ha, Hb, Hc, H47, H48⟩
  isplitl [Ha Hb Hc]
  · iapply (share3 c (V' main_v5)).2
    isplitl [Ha]; · iexact Ha
    isplitl [Hb]; · iexact Hb
    iexact Hc
  isplitl [H47]; · iexact H47
  iexact H48

/-- A core's unscoped buffers are the buffers behind the region's arrays and the rest. -/
theorem ub_split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') :=
  Pipeline.unscopedBufs_split₀ cfgs 1 winFacts₀1.arr_unscoped c V'

end Arrays

variable (m : (ℓ : Loc nD τ sig) → Buf (Elt F) ℓ)

/-- At the region's exit each of its arrays holds what the pipeline leaves: the inputs as entered, the output what the
    write-backs made of it; -/
theorem hF1 (c : Dev nD) (w : Fin cfg1.W) : (dat1 (E5 m) c).arrAt w cfg1.N = E6 m c (Pipeline.arrRef spec1 w) := by
  match w with
  | ⟨0, _⟩ => exact (((dat1 (E5 m) c).arrAt_in 0 rfl _).trans (A_eq1 (E5 m) c 0)).trans (W6_of m c _ (by decide)).symm
  | ⟨1, _⟩ => exact (((dat1 (E5 m) c).arrAt_in 1 rfl _).trans (A_eq1 (E5 m) c 1)).trans (W6_of m c _ (by decide)).symm
  | ⟨2, _⟩ => exact (((dat1 (E5 m) c).arrAt_in 2 rfl _).trans (A_eq1 (E5 m) c 2)).trans (W6_of m c _ (by decide)).symm
  | ⟨3, _⟩ => exact (((dat1 (E5 m) c).arrAt_in 3 rfl _).trans (A_eq1 (E5 m) c 3)).trans (W6_of m c _ (by decide)).symm
  | ⟨4, _⟩ => exact (W6_self m c).symm
/-- every other buffer holds what it held at entry. -/
theorem hrest1 (c : Dev nD) : ∀ b, b ∉ Finset.univ.image (Pipeline.arrRef spec1) → E6 m c b = E5 m c b :=
  fun b hb => W6_of m c b (by
    intro h
    rw [List.mem_singleton] at h
    exact hb (Finset.mem_image.mpr ⟨4, Finset.mem_univ _, h.symm⟩))
/-- So the unscoped rest is at exit what it was at entry. -/
theorem unscopedRest1_eq (c : Dev nD) :
    (Pipeline.unscopedRest (Ix := Unit) (Name := ℕ) (U := UR sig nD τ) (Lvl := ℕ) spec1 c (E6 m c) : sProp 𝕄)
      = Pipeline.unscopedRest spec1 c (E5 m c) := by
  unfold Pipeline.unscopedRest
  exact bigSep_congr fun b hb => by rw [hrest1 m c b (Finset.mem_sdiff.mp hb).2]

set_option backward.isDefEq.respectTransparency.types false in
/-- The region over the thread state: entered from every unscoped buffer at `W5`, left at `W6`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E5 m) c).loose
  hwaits := Pipeline.hwaits_of_owed_zero _ _ _ _ L lv 1 fun _ _ => rfl
  pre c := St (W5 m) c
  post c := St (W6 m) c
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit : (unscopedBufs (Ix := Unit) (Name := ℕ) (U := UR sig nD τ) (Lvl := ℕ) c (E5 m c) : sProp 𝕄)
        ⊢ iprop((pdats m 1 c).arrays ((pdats m 1 c).arrAt · 0) ∗ Pipeline.unscopedRest spec1 c (E5 m c)) := by
      rw [ub_split1]
      iintro ⟨Ha, Hr⟩
      isplitl [Ha]
      · iapply (arrays_of_arrBufs1 (E5 m) c (E5 m c) _ fun w => A_eq1 (E5 m) c w); iexact Ha
      iexact Hr
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E5 m c))
        ⊢ (unscopedBufs (Ix := Unit) (Name := ℕ) (U := UR sig nD τ) (Lvl := ℕ) c (E6 m c) : sProp 𝕄) := by
      rw [ub_split1, unscopedRest1_eq]
      iintro ⟨Ha, Hr⟩
      isplitl [Ha]
      · iapply (arrBufs_of_arrays1 (E5 m) c (E6 m c) _ (hF1 m c)); iexact Ha
      iexact Hr
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg2.lean ====
/-
  Region 2 (the output projection) as a segment of @main: the pipeline's layout, its body obligation, and the four entailments
  that take the thread state before the region to the pipeline's resources and back to the thread state after it.
-/
import proofs.«401496_j88184268521511_3_alg».proof.Proof.KVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- At the region's exit each of its arrays holds what the pipeline leaves: the inputs as entered, the output what the
    write-backs made of it; -/
theorem hF2 (c : Dev nD) (w : Fin cfg2.W) : (dat2 (E7 m) c).arrAt w cfg2.N = E8 m c (Pipeline.arrRef spec2 w) := by
  match w with
  | ⟨0, _⟩ => exact (((dat2 (E7 m) c).arrAt_in 0 rfl _).trans (A_eq2 (E7 m) c 0)).trans (W8_of m c _ (by decide)).symm
  | ⟨1, _⟩ => exact (((dat2 (E7 m) c).arrAt_in 1 rfl _).trans (A_eq2 (E7 m) c 1)).trans (W8_of m c _ (by decide)).symm
  | ⟨2, _⟩ => exact (W8_self m c).symm
/-- every other buffer holds what it held at entry. -/
theorem hrest2 (c : Dev nD) : ∀ b, b ∉ Finset.univ.image (Pipeline.arrRef spec2) → E8 m c b = E7 m c b :=
  fun b hb => W8_of m c b (by
    intro h
    rw [List.mem_singleton] at h
    exact hb (Finset.mem_image.mpr ⟨2, Finset.mem_univ _, h.symm⟩))

set_option backward.isDefEq.respectTransparency.types false in
/-- The region over the thread state: entered from every unscoped buffer at `W7`, left at `W8`. Its arrays are
    split out of the unscoped buffers at entry and put back at the exit contents; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := St (W7 m) c
  post c := St (W8 m) c
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
/-
  The launch: @main as nine segments — six host stretches and the three kernel regions, in program order —, the thread
  states chaining from one to the next, the first made from what the launch deals, the last read against the final memory.
  Every weakly fair execution of the program from a memory `m` with all semaphore counters at zero terminates without a
  fault, and every unscoped buffer ends at the last boundary's contents `W9 m c`. The arguments, which no item writes,
  therefore end as launched, and the result buffer ends at `W9 m c main_v52`.
-/
import proofs.«401496_j88184268521511_3_alg».proof.Proof.KSeg0
import proofs.«401496_j88184268521511_3_alg».proof.Proof.KSeg1
import proofs.«401496_j88184268521511_3_alg».proof.Proof.KSeg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A host stretch as a segment over the unscoped references, from the contents `W`, with `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)) ]

/-- The last thread state without the `owes`: every unscoped buffer at `W9`, the generator register at some state. -/
abbrev Tlast (c : Dev nD) : sProp 𝕄 := iprop(StableHlo.held (c : Thread nD τ) (Pipeline.ucRefs τ sig) (W9 m c) ∗ ∃ r, prngReg c r)

set_option backward.isDefEq.respectTransparency.types false in
/-- Every weakly fair execution of @main terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := Tlast m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide))⟩)
    (run_all m ρ)

/-- The run with the result named: the result buffer ends at `W9 m c main_v52`, the arguments as launched. -/
theorem run_result : θ_run defs (onTc (τ := τ) (main (F := F))) ⟨m, fun _ => 0, ρ⟩ (fun r => ∀ c : Dev nD,
      r.2.mem ((c.tc : Thread nD τ).loc main_v52) = W9 m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v52 (by decide)),
     (h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide))⟩)
    (run_all m ρ)

end Cert.Kernel.Hand

end
-- ==== Proof.Body0.lean ====
/-
  Region 0 of the program (the projection x · [Wq; Wk; Wv]ᵀ, one 1024-row block of x per grid point against the
  whole 1024×3072 weight) as a pipeline body, at any float instance and at any contents `V` of the device's buffers
  when the region is entered: the block of each window at a point, what the body leaves in the output window's
  staging buffer (its one store, covering the buffer), the body's triple, the pipeline's proof data and the
  obligation at every point.
-/
import proofs.«401496_j88184268521511_3_alg».proof.Proof.Gen.KernelIdeal.Launch
import proofs.«401496_j88184268521511_3_alg».proof.Proof.Gen.KernelIdeal.Skeleton
import proofs.«401496_j88184268521511_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window whose block index
    does not move keeps the block it was first given): the x window, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- and the weight window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each buffer: the whole of it. -/
abbrev rX0 : Rect S1024x1024 := Rect.unit (s := S1024x1024) ![0, 0] S1024x1024.size inb_S1024x1024_S1024x1024_0_0
abbrev rW0 : Rect S1024x3072 := Rect.unit (s := S1024x3072) ![0, 0] S1024x3072.size inb_S1024x3072_S1024x3072_0_0

/-- The output window's staging buffer after the body: the product of the x block and the weight block, stored whole. -/
def out0_2 (x0 : Vec F S1024x1024 .bf16) (x1 : Vec F S1024x3072 .bf16) : Vec F S1024x3072 .bf16 :=
  View.canon [⟨rW0, k0_pay1 (View.ld x0 rX0) (View.ld x1 rW0)⟩]

/-- The store covers the buffer. -/
theorem cover0_2 (p0 : Vec F S1024x3072 .bf16) (y : S1024x3072.Idx) :
    ∃ pc ∈ ([⟨rW0, p0⟩] : List (View.Piece (Elt F) S1024x3072 .bf16)), y ∈ pc.1.set :=
  View.cover_of_tiled [⟨rW0, p0⟩] S1024x3072.size (by rfl) y

set_option maxHeartbeats 1000000 in
/-- The body on whole staging memrefs, the inputs' at read contents `x0`, `x1` and the output's at anything, runs to
    the continuation holding the inputs' as they were and the output's at `out0_2 x0 x1`. -/
theorem sound_kernel0 (c : Dev nD) (E : Set ℕ) (i : grid0.Coords)
    (arg1 : Memref sig .tc .vmem S1024x1024 .bf16) (harg1 : arg1.IsWhole) (arg2 : Memref sig .tc .vmem S1024x3072 .bf16) (harg2 : arg2.IsWhole)
    (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at `out0_2` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
/-
  Region 1 of the program (attention, two heads per grid point: point (hp, qi, bb) takes 512 query rows of batch bb,
  the whole 4096-row key and value column blocks of head pair hp, the two heads' 512×2048 bias tiles, and writes the
  512×128 output block) as a pipeline body, at any float instance and at any contents `V` of the device's buffers when
  the region is entered. The query, key and value windows all read ONE array, the projection's result: the region
  holds that array in three shares, one per window. The body reads rows bb·2048 … bb·2048+2047 of the key and value
  blocks (the batch's own rows) and writes the two heads' 512×64 results side by side, which tile the output block.
-/
import proofs.«401496_j88184268521511_3_alg».proof.Proof.Gen.KernelIdeal.Launch
import proofs.«401496_j88184268521511_3_alg».proof.Proof.Gen.KernelIdeal.Skeleton
import proofs.«401496_j88184268521511_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block index
    does not move between two points keeps the block it was given): the query window, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- the key window, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- the value window, -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- and the bias window. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: the two heads' 64-column halves of a 512×128 block (the query block's and the
    output block's alike), -/
abbrev rLo : Rect S512x128 := Rect.unit (s := S512x128) ![0, 0] S512x64.size inb_S512x128_S512x64_0_0
abbrev rHi : Rect S512x128 := Rect.unit (s := S512x128) ![0, 64] S512x64.size inb_S512x128_S512x64_0_64
/-- the batch's 2048 rows of a key or value block, one head's 64 columns, -/
abbrev rKlo (i : grid1.Coords) : Rect S4096x128 := Rect.unit (s := S4096x128) (k1_off1 i) S2048x64.size (k1_off1_inb i)
abbrev rKhi (i : grid1.Coords) : Rect S4096x128 := Rect.unit (s := S4096x128) (k1_off2 i) S2048x64.size (k1_off2_inb i)
/-- and each head's bias tile. -/
abbrev rB0 : Rect S2x512x2048 := Rect.unit (s := S2x512x2048) ![0, 0, 0] S1x512x2048.size inb_S2x512x2048_S1x512x2048_0_0_0
abbrev rB1 : Rect S2x512x2048 := Rect.unit (s := S2x512x2048) ![1, 0, 0] S1x512x2048.size inb_S2x512x2048_S1x512x2048_1_0_0

/-- The output window's staging buffer after the body at grid coordinates `i`: the second head's result over columns
    64…127 and the first head's over columns 0…63 (the later store first). -/
def out1_4 (i : grid1.Coords) (x0 : Vec F S512x128 .bf16) (x1 x2 : Vec F S4096x128 .bf16) (x3 : Vec F S2x512x2048 .bf16) : Vec F S512x128 .bf16 :=
  View.canon [⟨rHi, k1_pay1 (k1_pay3 (View.ld x0 rHi)) (k1_pay4 (View.ld x1 (rKhi i))) (View.ld x2 (rKhi i)) (View.ld x3 rB1)⟩,
    ⟨rLo, k1_pay2 (View.ld x0 rLo) (View.ld x1 (rKlo i)) (View.ld x2 (rKlo i)) (View.ld x3 rB0)⟩]

/-- The two stores tile the buffer. -/
theorem cover1_4 (p1 p0 : Vec F S512x64 .bf16) (y : S512x128.Idx) :
    ∃ pc ∈ ([⟨rHi, p1⟩, ⟨rLo, p0⟩] : List (View.Piece (Elt F) S512x128 .bf16)), y ∈ pc.1.set :=
  View.cover_of_tiled [⟨rHi, p1⟩, ⟨rLo, p0⟩] S512x64.size (by rfl) y

set_option maxHeartbeats 4000000 in
/-- The body on whole staging memrefs, the inputs' at read contents `x0 … x3` and the output's at anything, runs to the
    continuation holding the inputs' as they were and the output's at `out1_4 i x0 x1 x2 x3`. -/
theorem sound_kernel1 (c : Dev nD) (E : Set ℕ) (i : grid1.Coords)
    (arg3 : Memref sig .tc .vmem S512x128 .bf16) (harg3 : arg3.IsWhole) (arg4 : Memref sig .tc .vmem S4096x128 .bf16) (harg4 : arg4.IsWhole)
    (arg5 : Memref sig .tc .vmem S4096x128 .bf16) (harg5 : arg5.IsWhole) (arg6 : Memref sig .tc .vmem S2x512x2048 .bf16) (harg6 : arg6.IsWhole)
    (arg7 : Memref sig .tc .vmem S512x128 .bf16) (harg7 : arg7.IsWhole)
    (x0 : Vec F S512x128 .bf16) (x1 x2 : Vec F S4096x128 .bf16) (x3 : Vec F S2x512x2048 .bf16) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out1_4 i x0 x1 x2 x3)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _ _)

/-- The proof data of pipeline 1 on core `c`: the arrays as the region finds them; after the body at point `t` each
    input's buffer at its block and the output's at `out1_4` of the input blocks; the projection's array held in three
    shares, one per window that reads it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Body2.lean ====
/-
  Region 2 of the program (the output projection a · Woᵀ, one 1024-row block of a per grid point against the
  whole 1024×1024 weight) as a pipeline body, at any float instance and at any contents `V` of the device's buffers
  when the region is entered: the block of each window at a point, what the body leaves in the output window's
  staging buffer (its one store, covering the buffer), the body's triple, the pipeline's proof data and the
  obligation at every point.
-/
import proofs.«401496_j88184268521511_3_alg».proof.Proof.Gen.KernelIdeal.Launch
import proofs.«401496_j88184268521511_3_alg».proof.Proof.Gen.KernelIdeal.Skeleton
import proofs.«401496_j88184268521511_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window whose block index
    does not move keeps the block it was first given): the x window, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- and the weight window. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each buffer: the whole of it. -/
abbrev rX2 : Rect S1024x1024 := Rect.unit (s := S1024x1024) ![0, 0] S1024x1024.size inb_S1024x1024_S1024x1024_0_0
abbrev rW2 : Rect S1024x1024 := Rect.unit (s := S1024x1024) ![0, 0] S1024x1024.size inb_S1024x1024_S1024x1024_0_0

/-- The output window's staging buffer after the body: the product of the x block and the weight block, stored whole. -/
def out2_2 (x0 : Vec F S1024x1024 .bf16) (x1 : Vec F S1024x1024 .bf16) : Vec F S1024x1024 .f32 :=
  View.canon [⟨rW2, k2_pay1 (View.ld x0 rX2) (View.ld x1 rW2)⟩]

/-- The store covers the buffer. -/
theorem cover2_2 (p0 : Vec F S1024x1024 .f32) (y : S1024x1024.Idx) :
    ∃ pc ∈ ([⟨rW2, p0⟩] : List (View.Piece (Elt F) S1024x1024 .f32)), y ∈ pc.1.set :=
  View.cover_of_tiled [⟨rW2, p0⟩] S1024x1024.size (by rfl) y

set_option maxHeartbeats 1000000 in
/-- The body on whole staging memrefs, the inputs' at read contents `x0`, `x1` and the output's at anything, runs to
    the continuation holding the inputs' as they were and the output's at `out2_2 x0 x1`. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t` each
    input's buffer at its block and the output's at `out2_2` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Vals.lean ====
/-
  The contents of a core's unscoped buffers at each boundary between two items of @main, folded from the launch
  memory: a host stretch applies its operations' pure functions; a kernel region leaves every buffer as it found it
  except its output window's array, which ends at what the pipeline's write-backs leave (the proof data's array after
  the last grid point). Then the proof data of the three pipelines, each at its region's entry contents, and what
  rides beside the buffers through every item.
-/
import proofs.«401496_j88184268521511_3_alg».proof.Proof.Body0
import proofs.«401496_j88184268521511_3_alg».proof.Proof.Body1
import proofs.«401496_j88184268521511_3_alg».proof.Proof.Body2
import proofs.«401496_j88184268521511_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- Core `c`'s buffers at launch, -/
abbrev W0 : Dev nD → Valuation τ sig (Elt F) := fun c b => m (c, b)
/-- after the first host stretch (the reshape and conversions that make x and the stacked, transposed weights), -/
abbrev W1 : Dev nD → Valuation τ sig (Elt F) := fun c => StableHlo.after hostOps0 (W0 m c)
/-- the same read at the TensorCore's references: what region 0 is entered from, -/
abbrev E1 : (c : Dev nD) → (b : Ref sig .tc) → Buf (Elt F) ((c : Thread nD τ).loc b) := fun c b => W1 m c b
/-- after region 0, which writes the projection `main_v5`, -/
def W2 (c : Dev nD) : Valuation τ sig (Elt F) :=
  Function.update (W1 m c) main_v5 ((dat0 (E1 m) c).arrAt 2 cfg0.N)
/-- after the three host stretches that compute the relative-position buckets and gather the bias, -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev E5 : (c : Dev nD) → (b : Ref sig .tc) → Buf (Elt F) ((c : Thread nD τ).loc b) := fun c b => W5 m c b
/-- after region 1, which writes the attention output `main_v48`, -/
def W6 (c : Dev nD) : Valuation τ sig (Elt F) :=
  Function.update (W5 m c) main_v48 ((dat1 (E5 m) c).arrAt 4 cfg1.N)
/-- after the host stretch that transposes the output weight, -/
abbrev W7 : Dev nD → Valuation τ sig (Elt F) := fun c => StableHlo.after hostOps2 (W6 m c)
abbrev E7 : (c : Dev nD) → (b : Ref sig .tc) → Buf (Elt F) ((c : Thread nD τ).loc b) := fun c b => W7 m c b
/-- after region 2, which writes the output projection `main_v51`, -/
def W8 (c : Dev nD) : Valuation τ sig (Elt F) :=
  Function.update (W7 m c) main_v51 ((dat2 (E7 m) c).arrAt 2 cfg2.N)
/-- and after the closing reshape. -/
abbrev W9 : Dev nD → Valuation τ sig (Elt F) := fun c => StableHlo.after hostOps3 (W8 m c)
abbrev E2 : (c : Dev nD) → (b : Ref sig .tc) → Buf (Elt F) ((c : Thread nD τ).loc b) := fun c b => W2 m c b
abbrev E6 : (c : Dev nD) → (b : Ref sig .tc) → Buf (Elt F) ((c : Thread nD τ).loc b) := fun c b => W6 m c b
abbrev E8 : (c : Dev nD) → (b : Ref sig .tc) → Buf (Elt F) ((c : Thread nD τ).loc b) := fun c b => W8 m c b

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v5] : List (Ref sig .tc))) : W2 m c r = W1 m c r := by
  simp only [W2, Function.update_of_ne (StableHlo.devRef_ne_of_ne (List.ne_of_not_mem_cons h) : (Proc.devRef .tc r : DevRef τ sig) ≠ Proc.devRef .tc main_v5)]
theorem W2_self (c : Dev nD) : W2 m c main_v5 = (dat0 (E1 m) c).arrAt 2 cfg0.N := by
  simp only [W2, Function.update_self]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ∉ ([main_v48] : List (Ref sig .tc))) : W6 m c r = W5 m c r := by
  simp only [W6, Function.update_of_ne (StableHlo.devRef_ne_of_ne (List.ne_of_not_mem_cons h) : (Proc.devRef .tc r : DevRef τ sig) ≠ Proc.devRef .tc main_v48)]
theorem W6_self (c : Dev nD) : W6 m c main_v48 = (dat1 (E5 m) c).arrAt 4 cfg1.N := by
  simp only [W6, Function.update_self]
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ ([main_v51] : List (Ref sig .tc))) : W8 m c r = W7 m c r := by
  simp only [W8, Function.update_of_ne (StableHlo.devRef_ne_of_ne (List.ne_of_not_mem_cons h) : (Proc.devRef .tc r : DevRef τ sig) ≠ Proc.devRef .tc main_v51)]
theorem W8_self (c : Dev nD) : W8 m c main_v51 = (dat2 (E7 m) c).arrAt 2 cfg2.N := by
  simp only [W8, Function.update_self]
theorem W9_of (c : Dev nD) (r : Ref sig .tc) (h : r ∉ hostOps3_W) : W9 m c r = W8 m c r :=
  StableHlo.after_of_writes_sub hostOps3 _ hostOps3_writes h

/-- A reference that no host stretch writes and that is no region's output array reaches the end as launched. -/
theorem W9_of_launch (c : Dev nD) (r : Ref sig .tc) (h0 : r ∉ hostOps0_W) (h1 : r ∉ hostOps1_W) (h11 : r ∉ hostOps1_1_W) (h12 : r ∉ hostOps1_2_W)
    (h2 : r ∉ hostOps2_W) (h3 : r ∉ hostOps3_W) (h5 : r ∉ ([main_v5] : List (Ref sig .tc))) (h48 : r ∉ ([main_v48] : List (Ref sig .tc)))
    (h51 : r ∉ ([main_v51] : List (Ref sig .tc))) : W9 m c r = m ((c : Thread nD τ).loc r) :=
  (W9_of m c r h3).trans <| (W8_of m c r h51).trans <| (W7_of m c r h2).trans <| (W6_of m c r h48).trans <| (W5_of m c r h12).trans <|
    (W4_of m c r h11).trans <| (W3_of m c r h1).trans <| (W2_of m c r h5).trans <| (W1_of m c r h0).trans rfl

/-! ## The proof data family and what rides beside the buffers -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E5 m) c
  | ⟨2, _⟩ => fun c => dat2 (E7 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state and its `owes`, at nothing. -/
abbrev R (c : Dev nD) : sProp 𝕄 := iprop((∃ r, prngReg c r) ∗ ∃ W, owes (c : Thread nD τ) (0 : CellTallies nD τ sig Unit) W)
/-- The thread state between two items: every unscoped buffer at the boundary's contents, and `R`. -/
abbrev St (W : Dev nD → Valuation τ sig (Elt F)) (c : Dev nD) : sProp 𝕄 :=
  iprop(StableHlo.held (c : Thread nD τ) (Pipeline.ucRefs τ sig) (W c) ∗ R c)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Seg0.lean ====
/-
  Region 0 (the projection) as a segment of @main: the pipeline's layout, its body obligation, and the four entailments that
  take the thread state before the region to the pipeline's resources and back to the thread state after it.
-/
import proofs.«401496_j88184268521511_3_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- At the region's exit each of its arrays holds what the pipeline leaves: the inputs as entered, the output what the
    write-backs made of it; -/
theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (W2_of m c _ (by decide)).symm
  | ⟨1, _⟩ => exact (((dat0 (E1 m) c).arrAt_in 1 rfl _).trans (A_eq0 (E1 m) c 1)).trans (W2_of m c _ (by decide)).symm
  | ⟨2, _⟩ => exact (W2_self m c).symm
/-- every other buffer holds what it held at entry. -/
theorem hrest0 (c : Dev nD) : ∀ b, b ∉ Finset.univ.image (Pipeline.arrRef spec0) → E2 m c b = E1 m c b :=
  fun b hb => W2_of m c b (by
    intro h
    rw [List.mem_singleton] at h
    exact hb (Finset.mem_image.mpr ⟨2, Finset.mem_univ _, h.symm⟩))

set_option backward.isDefEq.respectTransparency.types false in
/-- The region over the thread state: entered from every unscoped buffer at `W1`, left at `W2`. Its arrays are
    split out of the unscoped buffers at entry and put back at the exit contents; the generator register goes into the
    pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := St (W1 m) c
  post c := St (W2 m) c
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg1.lean ====
/-
  Region 1 (attention) as a segment of @main: the pipeline's layout, its body obligation, and the four entailments that take
  the thread state before the region to the pipeline's resources and back. Its query, key and value windows read ONE array,
  the projection `main_v5`: at entry that array's full share is dealt to the three windows (a half, a quarter, a quarter),
  at exit the three shares — each still at the entry contents, an input array being never written — are joined again.
-/
import proofs.«401496_j88184268521511_3_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Arrays

variable (V : (c : Dev nD) → (b : Ref sig .tc) → Buf (Elt F) ((c : Thread nD τ).loc b))

/-- The region's windows read three arrays: the projection (windows 0, 1, 2), the bias (window 3), the output (window 4). -/
theorem img1 : (Finset.univ.image (Pipeline.arrRef spec1) : Finset (Ref sig .tc)) = {main_v5, main_v47, main_v48} := by decide

/-- The buffers behind the windows' arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v5) ↦{fullShare} V' main_v5) ∗ (((c : Thread nD τ).loc main_v47) ↦{fullShare} V' main_v47)
          ∗ (((c : Thread nD τ).loc main_v48) ↦{fullShare} V' main_v48)) := by
  unfold Pipeline.arrBufs
  rw [img1, bigSep_insert (by decide), bigSep_insert (by decide), bigSep_singleton]
  rfl

set_option backward.isDefEq.respectTransparency.types false in
/-- A window's array, a whole buffer, held at the window's share at contents read off a valuation. -/
theorem win_pt1 (c : Dev nD) (V' : (b : Ref sig .tc) → Buf (Elt F) ((c : Thread nD τ).loc b))
    (G : (w : Fin cfg1.W) → Buf (Elt F) ((cfg1.win w).arr.view.loc (c : Thread nD τ)))
    (w : Fin cfg1.W) (s : PosShare TreeShare) (hs : (dat1 V c).share w = s) (hG : G w = V' (Pipeline.arrRef spec1 w)) :
    ((cfg1.win w).arr.view.loc (c : Thread nD τ) ↦[(cfg1.win w).arr.view.set]{(dat1 V c).share w} G w : sProp 𝕄)
      = ((c : Thread nD τ).loc (Pipeline.arrRef spec1 w) ↦{s} V' (Pipeline.arrRef spec1 w)) := by
  rw [(arr_whole1 w).set_eq_univ, hs, hG]

set_option backward.isDefEq.respectTransparency.types false in
/-- The pipeline's arrays at contents read off a valuation, window by window. -/
theorem arrays1_eq (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄)
      = iprop((((c : Thread nD τ).loc main_v5) ↦{fullShare.left} V' main_v5) ∗ (((c : Thread nD τ).loc main_v5) ↦{fullShare.right.left} V' main_v5)
          ∗ (((c : Thread nD τ).loc main_v5) ↦{fullShare.right.right} V' main_v5)
          ∗ (((c : Thread nD τ).loc main_v47) ↦{fullShare} V' main_v47) ∗ (((c : Thread nD τ).loc main_v48) ↦{fullShare} V' main_v48)) := by
  unfold Dat.arrays
  rw [bigSep_W1, win_pt1 V c V' G 0 fullShare.left rfl (hG 0), win_pt1 V c V' G 1 fullShare.right.left rfl (hG 1),
    win_pt1 V c V' G 2 fullShare.right.right rfl (hG 2), win_pt1 V c V' G 3 fullShare rfl (hG 3), win_pt1 V c V' G 4 fullShare rfl (hG 4)]

/-- The projection's array at the full share is the three windows' shares of it. -/
theorem share3 (c : Dev nD) (f : Buf (Elt F) ((c : Thread nD τ).loc main_v5)) :
    ((((c : Thread nD τ).loc main_v5) ↦{fullShare} f : sProp 𝕄))
      ⊣⊢ iprop((((c : Thread nD τ).loc main_v5) ↦{fullShare.left} f) ∗ (((c : Thread nD τ).loc main_v5) ↦{fullShare.right.left} f)
          ∗ (((c : Thread nD τ).loc main_v5) ↦{fullShare.right.right} f)) := by
  have h1 := pointsTo_share (Ix := Unit) (Name := ℕ) (U := UR sig nD τ) (Lvl := ℕ) (Val := Elt F) (ℓ := (c : Thread nD τ).loc main_v5) (I := Finset.univ) (f := f)
    (PosShare.mem_left_op_right fullShare)
  have h2 := pointsTo_share (Ix := Unit) (Name := ℕ) (U := UR sig nD τ) (Lvl := ℕ) (Val := Elt F) (ℓ := (c : Thread nD τ).loc main_v5) (I := Finset.univ) (f := f)
    (PosShare.mem_left_op_right fullShare.right)
  constructor
  · iintro H5
    ihave H := h1.1 $$ H5
    icases H with ⟨Ha, Hb⟩
    ihave H := h2.1 $$ Hb
    icases H with ⟨Hb, Hc⟩
    isplitl [Ha]; · iexact Ha
    isplitl [Hb]; · iexact Hb
    iexact Hc
  · iintro ⟨Ha, Hb, Hc⟩
    iapply h1.2
    isplitl [Ha]; · iexact Ha
    iapply h2.2
    isplitl [Hb]; · iexact Hb
    iexact Hc

/-- ENTRY, the arrays: the buffers behind the windows' arrays, whole at the full share, are the pipeline's arrays, the
    projection's full share dealt to the query, key and value windows. -/
theorem arrays_of_arrBufs1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 V c).arrays G := by
  rw [arrBufs1_eq, arrays1_eq V c V' G hG]
  iintro ⟨H5, H47, H48⟩
  ihave H := (share3 c (V' main_v5)).1 $$ H5
  icases H with ⟨Ha, Hb, Hc⟩
  isplitl [Ha]; · iexact Ha
  isplitl [Hb]; · iexact Hb
  isplitl [Hc]; · iexact Hc
  isplitl [H47]; · iexact H47
  iexact H48

/-- EXIT, the arrays: the three shares joined again. -/
theorem arrBufs_of_arrays1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊢ Pipeline.arrBufs (Ix := Unit) (Name := ℕ) (U := UR sig nD τ) (Lvl := ℕ) spec1 c V' := by
  rw [arrBufs1_eq, arrays1_eq V c V' G hG]
  iintro ⟨Ha, Hb, Hc, H47, H48⟩
  isplitl [Ha Hb Hc]
  · iapply (share3 c (V' main_v5)).2
    isplitl [Ha]; · iexact Ha
    isplitl [Hb]; · iexact Hb
    iexact Hc
  isplitl [H47]; · iexact H47
  iexact H48

/-- A core's unscoped buffers are the buffers behind the region's arrays and the rest. -/
theorem ub_split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop(Pipeline.arrBufs spec1 c V' ∗ Pipeline.unscopedRest spec1 c V') :=
  Pipeline.unscopedBufs_split₀ cfgs 1 winFacts₀1.arr_unscoped c V'

end Arrays

variable (m : (ℓ : Loc nD τ sig) → Buf (Elt F) ℓ)

/-- At the region's exit each of its arrays holds what the pipeline leaves: the inputs as entered, the output what the
    write-backs made of it; -/
theorem hF1 (c : Dev nD) (w : Fin cfg1.W) : (dat1 (E5 m) c).arrAt w cfg1.N = E6 m c (Pipeline.arrRef spec1 w) := by
  match w with
  | ⟨0, _⟩ => exact (((dat1 (E5 m) c).arrAt_in 0 rfl _).trans (A_eq1 (E5 m) c 0)).trans (W6_of m c _ (by decide)).symm
  | ⟨1, _⟩ => exact (((dat1 (E5 m) c).arrAt_in 1 rfl _).trans (A_eq1 (E5 m) c 1)).trans (W6_of m c _ (by decide)).symm
  | ⟨2, _⟩ => exact (((dat1 (E5 m) c).arrAt_in 2 rfl _).trans (A_eq1 (E5 m) c 2)).trans (W6_of m c _ (by decide)).symm
  | ⟨3, _⟩ => exact (((dat1 (E5 m) c).arrAt_in 3 rfl _).trans (A_eq1 (E5 m) c 3)).trans (W6_of m c _ (by decide)).symm
  | ⟨4, _⟩ => exact (W6_self m c).symm
/-- every other buffer holds what it held at entry. -/
theorem hrest1 (c : Dev nD) : ∀ b, b ∉ Finset.univ.image (Pipeline.arrRef spec1) → E6 m c b = E5 m c b :=
  fun b hb => W6_of m c b (by
    intro h
    rw [List.mem_singleton] at h
    exact hb (Finset.mem_image.mpr ⟨4, Finset.mem_univ _, h.symm⟩))
/-- So the unscoped rest is at exit what it was at entry. -/
theorem unscopedRest1_eq (c : Dev nD) :
    (Pipeline.unscopedRest (Ix := Unit) (Name := ℕ) (U := UR sig nD τ) (Lvl := ℕ) spec1 c (E6 m c) : sProp 𝕄)
      = Pipeline.unscopedRest spec1 c (E5 m c) := by
  unfold Pipeline.unscopedRest
  exact bigSep_congr fun b hb => by rw [hrest1 m c b (Finset.mem_sdiff.mp hb).2]

set_option backward.isDefEq.respectTransparency.types false in
/-- The region over the thread state: entered from every unscoped buffer at `W5`, left at `W6`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E5 m) c).loose
  hwaits := Pipeline.hwaits_of_owed_zero _ _ _ _ L lv 1 fun _ _ => rfl
  pre c := St (W5 m) c
  post c := St (W6 m) c
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit : (unscopedBufs (Ix := Unit) (Name := ℕ) (U := UR sig nD τ) (Lvl := ℕ) c (E5 m c) : sProp 𝕄)
        ⊢ iprop((pdats m 1 c).arrays ((pdats m 1 c).arrAt · 0) ∗ Pipeline.unscopedRest spec1 c (E5 m c)) := by
      rw [ub_split1]
      iintro ⟨Ha, Hr⟩
      isplitl [Ha]
      · iapply (arrays_of_arrBufs1 (E5 m) c (E5 m c) _ fun w => A_eq1 (E5 m) c w); iexact Ha
      iexact Hr
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E5 m c))
        ⊢ (unscopedBufs (Ix := Unit) (Name := ℕ) (U := UR sig nD τ) (Lvl := ℕ) c (E6 m c) : sProp 𝕄) := by
      rw [ub_split1, unscopedRest1_eq]
      iintro ⟨Ha, Hr⟩
      isplitl [Ha]
      · iapply (arrBufs_of_arrays1 (E5 m) c (E6 m c) _ (hF1 m c)); iexact Ha
      iexact Hr
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Seg2.lean ====
/-
  Region 2 (the output projection) as a segment of @main: the pipeline's layout, its body obligation, and the four entailments
  that take the thread state before the region to the pipeline's resources and back to the thread state after it.
-/
import proofs.«401496_j88184268521511_3_alg».proof.Proof.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

/-- At the region's exit each of its arrays holds what the pipeline leaves: the inputs as entered, the output what the
    write-backs made of it; -/
theorem hF2 (c : Dev nD) (w : Fin cfg2.W) : (dat2 (E7 m) c).arrAt w cfg2.N = E8 m c (Pipeline.arrRef spec2 w) := by
  match w with
  | ⟨0, _⟩ => exact (((dat2 (E7 m) c).arrAt_in 0 rfl _).trans (A_eq2 (E7 m) c 0)).trans (W8_of m c _ (by decide)).symm
  | ⟨1, _⟩ => exact (((dat2 (E7 m) c).arrAt_in 1 rfl _).trans (A_eq2 (E7 m) c 1)).trans (W8_of m c _ (by decide)).symm
  | ⟨2, _⟩ => exact (W8_self m c).symm
/-- every other buffer holds what it held at entry. -/
theorem hrest2 (c : Dev nD) : ∀ b, b ∉ Finset.univ.image (Pipeline.arrRef spec2) → E8 m c b = E7 m c b :=
  fun b hb => W8_of m c b (by
    intro h
    rw [List.mem_singleton] at h
    exact hb (Finset.mem_image.mpr ⟨2, Finset.mem_univ _, h.symm⟩))

set_option backward.isDefEq.respectTransparency.types false in
/-- The region over the thread state: entered from every unscoped buffer at `W7`, left at `W8`. Its arrays are
    split out of the unscoped buffers at entry and put back at the exit contents; the generator register goes into the
    pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ L lv 2 fun _ _ => rfl
  pre c := St (W7 m) c
  post c := St (W8 m) c
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/-
  The launch: @main as nine segments — six host stretches and the three kernel regions, in program order —, the thread
  states chaining from one to the next, the first made from what the launch deals, the last read against the final memory.
  Every weakly fair execution of the program from a memory `m` with all semaphore counters at zero terminates without a
  fault, and every unscoped buffer ends at the last boundary's contents `W9 m c`. The arguments, which no item writes,
  therefore end as launched, and the result buffer ends at `W9 m c main_v52`.
-/
import proofs.«401496_j88184268521511_3_alg».proof.Proof.Seg0
import proofs.«401496_j88184268521511_3_alg».proof.Proof.Seg1
import proofs.«401496_j88184268521511_3_alg».proof.Proof.Seg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- A host stretch as a segment over the unscoped references, from the contents `W`, with `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .host (hseg hostOps3 hostOps3_sub hostOps3_fresh (W8 m)) ]

/-- The last thread state without the `owes`: every unscoped buffer at `W9`, the generator register at some state. -/
abbrev Tlast (c : Dev nD) : sProp 𝕄 := iprop(StableHlo.held (c : Thread nD τ) (Pipeline.ucRefs τ sig) (W9 m c) ∗ ∃ r, prngReg c r)

set_option backward.isDefEq.respectTransparency.types false in
/-- Every weakly fair execution of @main terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m)) (Tₙ := Tlast m)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m c) ∗ R c) : sProp 𝕄)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide))⟩)
    (run_all m ρ)

/-- The run with the result named: the result buffer ends at `W9 m c main_v52`, the arguments as launched. -/
theorem run_result : θ_run defs (onTc (τ := τ) (main (F := F))) ⟨m, fun _ => 0, ρ⟩ (fun r => ∀ c : Dev nD,
      r.2.mem ((c.tc : Thread nD τ).loc main_v52) = W9 m c main_v52
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v52 (by decide)),
     (h c _ (mem_uc main_arg0 (by decide))).trans (W9_of_launch m c main_arg0 (by decide) (by decide) (by decide) (by decide) (by decide) (by decide) (by decide) (by decide) (by decide)),
     (h c _ (mem_uc main_arg1 (by decide))).trans (W9_of_launch m c main_arg1 (by decide) (by decide) (by decide) (by decide) (by decide) (by decide) (by decide) (by decide) (by decide)),
     (h c _ (mem_uc main_arg2 (by decide))).trans (W9_of_launch m c main_arg2 (by decide) (by decide) (by decide) (by decide) (by decide) (by decide) (by decide) (by decide) (by decide)),
     (h c _ (mem_uc main_arg3 (by decide))).trans (W9_of_launch m c main_arg3 (by decide) (by decide) (by decide) (by decide) (by decide) (by decide) (by decide) (by decide) (by decide)),
     (h c _ (mem_uc main_arg4 (by decide))).trans (W9_of_launch m c main_arg4 (by decide) (by decide) (by decide) (by decide) (by decide) (by decide) (by decide) (by decide) (by decide)),
     (h c _ (mem_uc main_arg5 (by decide))).trans (W9_of_launch m c main_arg5 (by decide) (by decide) (by decide) (by decide) (by decide) (by decide) (by decide) (by decide) (by decide))⟩)
    (run_all m ρ)

end Cert.KernelIdeal.Hand

end
-- ==== Proof.ValSpec.lean ====
/-
  The vocabulary the two programs are compared in. The kernel keeps the three projections q, k, v side by side in ONE
  4096×3072 array (row b·2048+s; columns 0…1023 q, 1024…2047 k, 2048…3071 v; head h owns columns h·64 … h·64+63 of each
  third) and the bias as a 16×2048×2048 array. One attention row, as a function of those two arrays: the scores of query
  row r and head h against the 2048 keys of r's batch, scaled by 1/8, plus the bias; their maximum; the exponentials of
  the differences over their sum; and that row times the values. The reference computes q, k, v as three separate arrays:
  `qkvRef` lays them side by side as the kernel does.
-/
import proofs.«401496_j88184268521511_3_alg».proof.Proof.RefRead
import Idealize.ShloMosaic.Lib.ValueIdx
import Idealize.ShloMosaic.PureOps.Ideal.Laws
import proofs.«401496_j88184268521511_3_alg».proof.Proof.Gen.KernelIdeal

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- Head `h`'s column `j` in the query third, the key third and the value third of the projection array, and in the
    1024-column attention output. -/
def colQ (h : Fin 16) (j : Fin 64) : Fin 3072 := ⟨h.val * 64 + j.val, by have := h.isLt; have := j.isLt; omega⟩
def colK (h : Fin 16) (j : Fin 64) : Fin 3072 := ⟨1024 + h.val * 64 + j.val, by have := h.isLt; have := j.isLt; omega⟩
def colV (h : Fin 16) (j : Fin 64) : Fin 3072 := ⟨2048 + h.val * 64 + j.val, by have := h.isLt; have := j.isLt; omega⟩
def colO (h : Fin 16) (j : Fin 64) : Fin 1024 := ⟨h.val * 64 + j.val, by have := h.isLt; have := j.isLt; omega⟩
/-- Row `r`'s batch and position, the row of key `k` of `r`'s batch, and the row of position `s` of batch `b`. -/
def batchOf (r : Fin 4096) : Fin 2 := ⟨r.val / 2048, by have := r.isLt; omega⟩
def posOf (r : Fin 4096) : Fin 2048 := ⟨r.val % 2048, by omega⟩
def rowK (r : Fin 4096) (k : Fin 2048) : Fin 4096 := ⟨r.val / 2048 * 2048 + k.val, by have := r.isLt; have := k.isLt; omega⟩
def rowOf (b : Fin 2) (s : Fin 2048) : Fin 4096 := ⟨b.val * 2048 + s.val, by have := b.isLt; have := s.isLt; omega⟩

theorem colO_surj (d : Fin 1024) : ∃ h j, d = colO h j :=
  ⟨⟨d.val / 64, by have := d.isLt; omega⟩, ⟨d.val % 64, by omega⟩, Fin.ext (by simp only [colO]; omega)⟩
theorem rowOf_surj (r : Fin 4096) : r = rowOf (batchOf r) (posOf r) := Fin.ext (by simp only [rowOf, batchOf, posOf]; omega)

/-- The score of query row `r`, head `h`, against key `k` of its batch. -/
def scoreRow (Q : S4096x3072.Idx → EReal) (B : S16x2048x2048.Idx → EReal) (r : Fin 4096) (h : Fin 16) (k : Fin 2048) : EReal :=
  (∑ j : Fin 64, Q (ix2 r (colQ h j)) * Q (ix2 (rowK r k) (colK h j))) * Ideal.ofBits .f32 0x3E000000#32 + B (ix3 h (posOf r) k)
/-- A row's maximum, folded from −∞. -/
def rowMax (s : Fin 2048 → EReal) : EReal := (Finset.univ : Finset (Fin 2048)).fold max (Ideal.ofBits .f32 0xFF800000#32) s
/-- The softmax of a row. -/
def softRow (s : Fin 2048 → EReal) (k : Fin 2048) : EReal :=
  Ideal.div (Ideal.exp (s k - rowMax s)) (∑ k' : Fin 2048, Ideal.exp (s k' - rowMax s))
/-- The attention output of row `r`, head `h`, column `j`. -/
def attRow (Q : S4096x3072.Idx → EReal) (B : S16x2048x2048.Idx → EReal) (r : Fin 4096) (h : Fin 16) (j : Fin 64) : EReal :=
  ∑ k : Fin 2048, softRow (scoreRow Q B r h) k * Q (ix2 (rowK r k) (colV h j))

/-- The product of two matrices given as arrays, at row `r` and column `e`. -/
def matProd {n k p : Nat} (A : (⟨2, ![n, k]⟩ : Shape).Idx → EReal) (B : (⟨2, ![k, p]⟩ : Shape).Idx → EReal) (r : Fin n) (e : Fin p) : EReal :=
  ∑ d : Fin k, A (ix2 r d) * B (ix2 d e)

open Cert.ReferenceIdeal.ReadP in
/-- The reference's three projections laid side by side as the kernel's one array. -/
def qkvRef (x0 : (⟨S2x2048x1024, .f32⟩ : BufTy).Contents (Elt Ideal)) (x1 x2 x3 : (⟨S1024x1024, .f32⟩ : BufTy).Contents (Elt Ideal)) :
    S4096x3072.Idx → EReal := fun i =>
  if h1 : (i 1).val < 1024 then
    val_main_v0 (F := Ideal) x0 x1 (ix3 (batchOf ⟨(i 0).val, idx2_lt0 i⟩) (posOf ⟨(i 0).val, idx2_lt0 i⟩) ⟨(i 1).val, h1⟩)
  else if h2 : (i 1).val < 2048 then
    val_main_v3 (F := Ideal) x0 x2 (ix3 (batchOf ⟨(i 0).val, idx2_lt0 i⟩) (posOf ⟨(i 0).val, idx2_lt0 i⟩) ⟨(i 1).val - 1024, by omega⟩)
  else
    val_main_v6 (F := Ideal) x0 x3 (ix3 (batchOf ⟨(i 0).val, idx2_lt0 i⟩) (posOf ⟨(i 0).val, idx2_lt0 i⟩)
      ⟨(i 1).val - 2048, by have := idx2_lt1 i; omega⟩)

end Cert.KernelIdeal.Hand

end
-- ==== Proof.KHost.lean ====
/-
  The kernel program's host operations read at an index, at the ideal instance, against the launch memory `m`: the
  reshaped and converted x; the stacked, transposed, converted weights; the bias array (the same bucket computation and
  the same table as the reference's, gathered in the other layout); the transposed output weight; the closing reshape.
  A conversion between float formats is the identity here.
-/
import proofs.«401496_j88184268521511_3_alg».proof.Proof.Vals
import proofs.«401496_j88184268521511_3_alg».proof.Proof.ValSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

open Cert.ReferenceIdeal.ReadP

variable (m : (ℓ : Loc nD τ sig) → Buf (Elt Ideal) ℓ) (c : Dev nD)

/-- The launch contents of the six arguments. -/
abbrev a0 : S2x2048x1024.Idx → EReal := m ((c : Thread nD τ).loc main_arg0)
abbrev a1 : S1024x1024.Idx → EReal := m ((c : Thread nD τ).loc main_arg1)
abbrev a2 : S1024x1024.Idx → EReal := m ((c : Thread nD τ).loc main_arg2)
abbrev a3 : S1024x1024.Idx → EReal := m ((c : Thread nD τ).loc main_arg3)
abbrev a4 : S1024x1024.Idx → EReal := m ((c : Thread nD τ).loc main_arg4)
abbrev a5 : S32x16.Idx → EReal := m ((c : Thread nD τ).loc main_arg5)

theorem x_at (r : Fin 4096) (d : Fin 1024) :
    (W1 m c main_v1 : S4096x1024.Idx → EReal) (ix2 r d) = a0 m c (ix3 (batchOf r) (posOf r) d) := by
  have e : (W1 m c main_v1 : S4096x1024.Idx → EReal)
      = (truncf .bf16 (shapeCast S4096x1024 (a0 m c) shapeCasts_S2x2048x1024_S4096x1024 : FVec Ideal S4096x1024 .f32) bitsLt_bf16_f32 : FVec Ideal S4096x1024 .bf16) := by
    show StableHlo.after hostOps0 (W0 m c) (Proc.devRef .tc main_v1) = _
    after_results; rfl
  rw [e, truncf_apply]
  refine shapeCast_apply _ _ _ _ ?_
  rw [Shape.rowMajor_val_three, Shape.rowMajor_val_two]
  show ((r.val / 2048) * 2048 + r.val % 2048) * 1024 + d.val = r.val * 1024 + d.val
  omega

theorem w_at (d : Fin 1024) (e : Fin 3072) :
    (W1 m c main_v4 : S1024x3072.Idx → EReal) (ix2 d e)
      = if h1 : e.val < 1024 then a1 m c (ix2 ⟨e.val, h1⟩ d)
        else if h2 : e.val < 2048 then a2 m c (ix2 ⟨e.val - 1024, by omega⟩ d)
        else a3 m c (ix2 ⟨e.val - 2048, by have := e.isLt; omega⟩ d) := by
  have e1 : (W1 m c main_v4 : S1024x3072.Idx → EReal)
      = (truncf .bf16 (transpose S1024x3072 [1, 0]
          (concatenate S3072x1024 0 [⟨S1024x1024, a1 m c⟩, ⟨S1024x1024, a2 m c⟩, ⟨S1024x1024, a3 m c⟩]
            concatenates_S1024x1024_S1024x1024_S1024x1024_S3072x1024_d0 : FVec Ideal S3072x1024 .f32)
          transposes_S3072x1024_S1024x3072_1_0 : FVec Ideal S1024x3072 .f32) bitsLt_bf16_f32 : FVec Ideal S1024x3072 .bf16) := by
    show StableHlo.after hostOps0 (W0 m c) (Proc.devRef .tc main_v4) = _
    after_results
    try rfl
  rw [e1, truncf_apply]
  refine (transpose_apply [1, 0] _ transposes_S3072x1024_S1024x3072_1_0 (ix2 d e) (ix2 e d) (fun b => match b with
    | ⟨0, _⟩ => rfl
    | ⟨1, _⟩ => rfl)).trans ?_
  -- row e of the stacked array is row e mod 1024 of piece e / 1024
  split
  · next h1 =>
    exact concatenate_apply_piece (t := S3072x1024) (0 : Fin 2) [⟨S1024x1024, a1 m c⟩, ⟨S1024x1024, a2 m c⟩, ⟨S1024x1024, a3 m c⟩]
        concatenates_S1024x1024_S1024x1024_S1024x1024_S3072x1024_d0 (ix2 e d)
      0 (by show 0 < 3; omega) S1024x1024 (a1 m c) rfl rfl 0 rfl (ix2 ⟨e.val, h1⟩ d)
      (fun b hb => match b, hb with
        | ⟨0, _⟩, hb => absurd rfl hb
        | ⟨1, _⟩, _ => rfl)
      (by show 0 + e.val = e.val; omega)
  · next h1 =>
    split
    · next h2 =>
      exact concatenate_apply_piece (t := S3072x1024) (0 : Fin 2) [⟨S1024x1024, a1 m c⟩, ⟨S1024x1024, a2 m c⟩, ⟨S1024x1024, a3 m c⟩]
        concatenates_S1024x1024_S1024x1024_S1024x1024_S3072x1024_d0 (ix2 e d)
        1 (by show 1 < 3; omega) S1024x1024 (a2 m c) rfl rfl 1024 rfl (ix2 ⟨e.val - 1024, by omega⟩ d)
        (fun b hb => match b, hb with
          | ⟨0, _⟩, hb => absurd rfl hb
          | ⟨1, _⟩, _ => rfl)
        (by show 1024 + (e.val - 1024) = e.val; omega)
    · next h2 =>
      exact concatenate_apply_piece (t := S3072x1024) (0 : Fin 2) [⟨S1024x1024, a1 m c⟩, ⟨S1024x1024, a2 m c⟩, ⟨S1024x1024, a3 m c⟩]
        concatenates_S1024x1024_S1024x1024_S1024x1024_S3072x1024_d0 (ix2 e d)
        2 (by show 2 < 3; omega) S1024x1024 (a3 m c) rfl rfl 2048 rfl (ix2 ⟨e.val - 2048, by have := e.isLt; omega⟩ d)
        (fun b hb => match b, hb with
          | ⟨0, _⟩, hb => absurd rfl hb
          | ⟨1, _⟩, _ => rfl)
        (by show 2048 + (e.val - 2048) = e.val; omega)

section Gather
variable {α : Type} {w : Nat}

/-- The kernel's gather read at (h, s, k): the operand's row h at the start index of (s, k), read signed and clamped into the 32 columns. -/
theorem gatherK_apply (x : S16x32.Idx → α) (idx : IVec S2048x2048x1 w) (h : Fin 16) (s k : Fin 2048) :
    Host.gather gather_S16x32_S2048x2048x1_S16x2048x2048_0_1_n_n_1_2_161 x idx (ix3 h s k)
      = x (ix2 h ⟨min (idx (ix3 s k (0 : Fin 1))).toInt.toNat 31, by omega⟩) := by
  unfold Host.gather
  congr 1
  funext a
  refine Fin.ext ?_
  match a with
  | ⟨0, _⟩ =>
    show gather_S16x32_S2048x2048x1_S16x2048x2048_0_1_n_n_1_2_161.start (ix3 h s k) idx 0
        + gather_S16x32_S2048x2048x1_S16x2048x2048_0_1_n_n_1_2_161.batchCoord (ix3 h s k) 0
        + gather_S16x32_S2048x2048x1_S16x2048x2048_0_1_n_n_1_2_161.offCoord (ix3 h s k) 0 = h.val
    rw [GatherDims.batchCoord_eq_zero _ _ _ List.not_mem_nil]
    unfold GatherDims.start
    rw [dif_neg (show (0 : Fin 2) ∉ gather_S16x32_S2048x2048x1_S16x2048x2048_0_1_n_n_1_2_161.startIndexMap by decide)]
    unfold GatherDims.offCoord
    rw [dif_pos (show (0 : Fin 2) ∈ gather_S16x32_S2048x2048x1_S16x2048x2048_0_1_n_n_1_2_161.sKept by decide)]
    simp only [Nat.zero_add, Nat.add_zero]
    rfl
  | ⟨1, _⟩ =>
    show gather_S16x32_S2048x2048x1_S16x2048x2048_0_1_n_n_1_2_161.start (ix3 h s k) idx 1
        + gather_S16x32_S2048x2048x1_S16x2048x2048_0_1_n_n_1_2_161.batchCoord (ix3 h s k) 1
        + gather_S16x32_S2048x2048x1_S16x2048x2048_0_1_n_n_1_2_161.offCoord (ix3 h s k) 1
        = min (idx (ix3 s k (0 : Fin 1))).toInt.toNat 31
    rw [GatherDims.batchCoord_eq_zero _ _ _ List.not_mem_nil,
      GatherDims.offCoord_eq_zero _ _ _ (show (1 : Fin 2) ∉ gather_S16x32_S2048x2048x1_S16x2048x2048_0_1_n_n_1_2_161.sKept by decide)]
    simp only [Nat.add_zero]
    unfold GatherDims.start
    rw [dif_pos (show (1 : Fin 2) ∈ gather_S16x32_S2048x2048x1_S16x2048x2048_0_1_n_n_1_2_161.startIndexMap from List.mem_singleton.mpr rfl)]
    have hsi : gather_S16x32_S2048x2048x1_S16x2048x2048_0_1_n_n_1_2_161.siIdx (ix3 h s k)
        ⟨List.idxOf (1 : Fin 2) gather_S16x32_S2048x2048x1_S16x2048x2048_0_1_n_n_1_2_161.startIndexMap,
          List.idxOf_lt_length_iff.2 (List.mem_singleton.mpr rfl)⟩ = ix3 s k (0 : Fin 1) := by
      funext b; refine Fin.ext ?_
      match b with
      | ⟨0, _⟩ => rfl
      | ⟨1, _⟩ => rfl
      | ⟨2, _⟩ => rfl
    rw [hsi]
    rfl

/-- The reference's gather read at (s, k, h): the table's row at the start index of (s, k), read signed and clamped into the 32 rows, at column h. -/
theorem gatherR_apply (x : Cert.ReferenceIdeal.S32x16.Idx → α) (idx : IVec Cert.ReferenceIdeal.S2048x2048x1 w) (s k : Fin 2048) (h : Fin 16) :
    Host.gather Cert.ReferenceIdeal.gather_S32x16_S2048x2048x1_S2048x2048x16_2_0_n_n_0_2_116 x idx (ix3 s k h)
      = x (ix2 ⟨min (idx (ix3 s k (0 : Fin 1))).toInt.toNat 31, by omega⟩ h) := by
  unfold Host.gather
  congr 1
  funext a
  refine Fin.ext ?_
  match a with
  | ⟨0, _⟩ =>
    show Cert.ReferenceIdeal.gather_S32x16_S2048x2048x1_S2048x2048x16_2_0_n_n_0_2_116.start (ix3 s k h) idx 0
        + Cert.ReferenceIdeal.gather_S32x16_S2048x2048x1_S2048x2048x16_2_0_n_n_0_2_116.batchCoord (ix3 s k h) 0
        + Cert.ReferenceIdeal.gather_S32x16_S2048x2048x1_S2048x2048x16_2_0_n_n_0_2_116.offCoord (ix3 s k h) 0
        = min (idx (ix3 s k (0 : Fin 1))).toInt.toNat 31
    rw [GatherDims.batchCoord_eq_zero _ _ _ List.not_mem_nil,
      GatherDims.offCoord_eq_zero _ _ _ (show (0 : Fin 2) ∉ Cert.ReferenceIdeal.gather_S32x16_S2048x2048x1_S2048x2048x16_2_0_n_n_0_2_116.sKept by decide)]
    simp only [Nat.add_zero]
    unfold GatherDims.start
    rw [dif_pos (show (0 : Fin 2) ∈ Cert.ReferenceIdeal.gather_S32x16_S2048x2048x1_S2048x2048x16_2_0_n_n_0_2_116.startIndexMap from List.mem_singleton.mpr rfl)]
    have hsi : Cert.ReferenceIdeal.gather_S32x16_S2048x2048x1_S2048x2048x16_2_0_n_n_0_2_116.siIdx (ix3 s k h)
        ⟨List.idxOf (0 : Fin 2) Cert.ReferenceIdeal.gather_S32x16_S2048x2048x1_S2048x2048x16_2_0_n_n_0_2_116.startIndexMap,
          List.idxOf_lt_length_iff.2 (List.mem_singleton.mpr rfl)⟩ = ix3 s k (0 : Fin 1) := by
      funext b; refine Fin.ext ?_
      match b with
      | ⟨0, _⟩ => rfl
      | ⟨1, _⟩ => rfl
      | ⟨2, _⟩ => rfl
    rw [hsi]
    rfl
  | ⟨1, _⟩ =>
    show Cert.ReferenceIdeal.gather_S32x16_S2048x2048x1_S2048x2048x16_2_0_n_n_0_2_116.start (ix3 s k h) idx 1
        + Cert.ReferenceIdeal.gather_S32x16_S2048x2048x1_S2048x2048x16_2_0_n_n_0_2_116.batchCoord (ix3 s k h) 1
        + Cert.ReferenceIdeal.gather_S32x16_S2048x2048x1_S2048x2048x16_2_0_n_n_0_2_116.offCoord (ix3 s k h) 1 = h.val
    rw [GatherDims.batchCoord_eq_zero _ _ _ List.not_mem_nil]
    unfold GatherDims.start
    rw [dif_neg (show (1 : Fin 2) ∉ Cert.ReferenceIdeal.gather_S32x16_S2048x2048x1_S2048x2048x16_2_0_n_n_0_2_116.startIndexMap by decide)]
    unfold GatherDims.offCoord
    rw [dif_pos (show (1 : Fin 2) ∈ Cert.ReferenceIdeal.gather_S32x16_S2048x2048x1_S2048x2048x16_2_0_n_n_0_2_116.sKept by decide)]
    simp only [Nat.zero_add, Nat.add_zero]
    rfl
end Gather

section Chain
variable {F : FTy → Type} [FloatOps F]
variable (mF : (ℓ : Loc nD τ sig) → Buf (Elt F) ℓ)

/-- The wrapped bucket indices are the reference's: both programs apply the same operations, with the same literals, to
    the same two iotas, so the two arrays are the same composed function; this holds at every float instance. -/
theorem idx_chain :
    (W5 mF c main_v46 : (⟨S2048x2048x1, .i32⟩ : BufTy).Contents (Elt F)) = val_main_v50 (F := F) := by
  show StableHlo.after hostOps1_2 (StableHlo.after hostOps1_1 (StableHlo.after hostOps1 (W2 mF c))) (Proc.devRef .tc main_v46) = _
  after_results_simp
  first | rfl | (simp only [StableHlo.TRef.ofBuf, StableHlo.TRef.toBuf, cast_eq]; rfl)

/-- The bias array is the gather from the transposed, converted table at the wrapped bucket indices. -/
theorem bias_gather :
    (W5 mF c main_v47 : (⟨S16x2048x2048, .bf16⟩ : BufTy).Contents (Elt F))
      = Host.gather gather_S16x32_S2048x2048x1_S16x2048x2048_0_1_n_n_1_2_161
          (truncf .bf16 (transpose S16x32 [1, 0] (W4 mF c main_arg5 : (⟨S32x16, .f32⟩ : BufTy).Contents (Elt F))
            transposes_S32x16_S16x32_1_0 : (⟨S16x32, .f32⟩ : BufTy).Contents (Elt F)) bitsLt_bf16_f32 : (⟨S16x32, .bf16⟩ : BufTy).Contents (Elt F))
          (W5 mF c main_v46 : (⟨S2048x2048x1, .i32⟩ : BufTy).Contents (Elt F)) := by
  show StableHlo.after hostOps1_2 (W4 mF c) (Proc.devRef .tc main_v47)
    = Host.gather _ (truncf .bf16 (transpose S16x32 [1, 0] (W4 mF c (Proc.devRef .tc main_arg5)) _) _)
        (StableHlo.after hostOps1_2 (W4 mF c) (Proc.devRef .tc main_v46))
  after_results_simp
  try rfl
end Chain

theorem bias_eq : (W5 m c main_v47 : S16x2048x2048.Idx → EReal) = val_main_v52 (F := Ideal) (a5 m c) := by
  have e5 : (W4 m c main_arg5 : S32x16.Idx → EReal) = a5 m c :=
    (W4_of m c main_arg5 (by decide)).trans <| (W3_of m c main_arg5 (by decide)).trans <| (W2_of m c main_arg5 (by decide)).trans <|
      (W1_of m c main_arg5 (by decide)).trans rfl
  funext j
  obtain ⟨h, s, k, rfl⟩ : ∃ (h : Fin 16) (s k : Fin 2048), j = ix3 h s k := ⟨j 0, j 1, j 2, eq_ix3 j⟩
  -- the kernel's side: row h of the transposed table at the clamped bucket of (s, k)
  have hL : (W5 m c main_v47 : S16x2048x2048.Idx → EReal) (ix3 h s k)
      = a5 m c (ix2 ⟨min (val_main_v50 (F := Ideal) (ix3 s k (0 : Fin 1))).toInt.toNat 31, by omega⟩ h) := by
    rw [bias_gather, idx_chain, e5, gatherK_apply, truncf_apply]
    exact transpose_apply [1, 0] _ transposes_S32x16_S16x32_1_0 _ _ (fun b => match b with
      | ⟨0, _⟩ => rfl
      | ⟨1, _⟩ => rfl)
  -- the reference's side: the table's row at the same clamped bucket, column h, then the transpose
  have hR : val_main_v52 (F := Ideal) (a5 m c) (ix3 h s k)
      = a5 m c (ix2 ⟨min (val_main_v50 (F := Ideal) (ix3 s k (0 : Fin 1))).toInt.toNat 31, by omega⟩ h) := by
    unfold val_main_v52 val_main_v51
    exact (transpose_apply [2, 0, 1] _ _ (ix3 h s k) (ix3 s k h) (fun b => match b with
      | ⟨0, _⟩ => rfl
      | ⟨1, _⟩ => rfl
      | ⟨2, _⟩ => rfl)).trans (gatherR_apply _ _ s k h)
  exact hL.trans hR.symm

theorem wo_at (d e : Fin 1024) :
    (W7 m c main_v50 : S1024x1024.Idx → EReal) (ix2 d e) = a4 m c (ix2 e d) := by
  have e0 : (W6 m c main_arg4 : S1024x1024.Idx → EReal) = a4 m c :=
    (W6_of m c main_arg4 (by decide)).trans <| (W5_of m c main_arg4 (by decide)).trans <| (W4_of m c main_arg4 (by decide)).trans <|
      (W3_of m c main_arg4 (by decide)).trans <| (W2_of m c main_arg4 (by decide)).trans <| (W1_of m c main_arg4 (by decide)).trans rfl
  have e1 : (W7 m c main_v50 : S1024x1024.Idx → EReal)
      = (truncf .bf16 (transpose S1024x1024 [1, 0] (W6 m c main_arg4 : FVec Ideal S1024x1024 .f32) transposes_S1024x1024_S1024x1024_1_0 : FVec Ideal S1024x1024 .f32)
          bitsLt_bf16_f32 : FVec Ideal S1024x1024 .bf16) := by
    show StableHlo.after hostOps2 (W6 m c) (Proc.devRef .tc main_v50) = _
    after_results
  rw [e1, truncf_apply, e0]
  exact transpose_apply [1, 0] _ transposes_S1024x1024_S1024x1024_1_0 (ix2 d e) (ix2 e d) (fun b => match b with
    | ⟨0, _⟩ => rfl
    | ⟨1, _⟩ => rfl)

theorem out_at (b : Fin 2) (s : Fin 2048) (e : Fin 1024) :
    (W9 m c main_v52 : S2x2048x1024.Idx → EReal) (ix3 b s e) = (W8 m c main_v51 : S4096x1024.Idx → EReal) (ix2 (rowOf b s) e) := by
  have e1 : (W9 m c main_v52 : S2x2048x1024.Idx → EReal)
      = shapeCast S2x2048x1024 (W8 m c main_v51 : S4096x1024.Idx → EReal) shapeCasts_S4096x1024_S2x2048x1024 := by
    show StableHlo.after hostOps3 (W8 m c) (Proc.devRef .tc main_v52) = _
    after_results; rfl
  rw [e1]
  refine shapeCast_apply (s := S4096x1024) (t := S2x2048x1024) (W8 m c main_v51 : S4096x1024.Idx → EReal)
    shapeCasts_S4096x1024_S2x2048x1024 (ix3 b s e) (ix2 (rowOf b s) e) ?_
  rw [Shape.rowMajor_val_three, Shape.rowMajor_val_two]
  show (b.val * 2048 + s.val) * 1024 + e.val = (b.val * 2048 + s.val) * 1024 + e.val
  rfl

end Cert.KernelIdeal.Hand

end
-- ==== Proof.KVal02.lean ====
/-
  What regions 0 and 2 leave in their output arrays after the last grid point, read at an index, at the ideal instance:
  each 1024-row block of the result is the product of that block of the left operand with the whole right operand, the
  blocks tile the rows, so the whole array is the matrix product of the two arrays the region was entered with.
-/
import proofs.«401496_j88184268521511_3_alg».proof.Proof.Body0
import proofs.«401496_j88184268521511_3_alg».proof.Proof.Body2
import proofs.«401496_j88184268521511_3_alg».proof.Proof.ValSpec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

open Idealize.ShloMosaic.Pipeline (Dat)

variable (V : (c : Dev nD) → (b : Ref sig .tc) → Buf (Elt Ideal) ((c : Thread nD τ).loc b))

/-! ## The body's product at an index

The matmul contracts axis 1 of its left operand with axis 0 of its right operand; its result's axis 0 is the left
operand's axis 0 and its axis 1 the right operand's axis 1. Read at row `p`, column `q`, into a zero accumulator, it is
the sum over the contracted coordinate `d` of left `(p, d)` times right `(d, q)`. The shape casts are between equal
shapes and the change of float format is the identity on the extended reals. -/

private theorem dot0_lhs_0 (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide), dif_pos (show (0 : Fin S1024x1024.rank) ∈ dot_S1024x1024_S1024x3072_S1024x3072_1_0_0_1_n_n.lhsNonContracting by decide)]
  rfl
private theorem dot0_lhs_1 (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q
private theorem dot0_rhs_0 (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q
private theorem dot0_rhs_1 (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide), dif_pos (show (1 : Fin S1024x3072.rank) ∈ dot_S1024x1024_S1024x3072_S1024x3072_1_0_0_1_n_n.rhsNonContracting by decide)]
  rfl

/-- Region 0's body at row `p`, column `q` of its block. -/
private theorem body0_apply (x : FVec Ideal S1024x1024 .bf16) (w : FVec Ideal S1024x3072 .bf16) (p : Fin 1024) (q : Fin 3072) :
    ((k0_pay1 (F := Ideal) x w : FVec Ideal S1024x3072 .bf16) : S1024x3072.Idx → EReal) (ix2 p q)
      = ∑ d : Fin 1024, (x : S1024x1024.Idx → EReal) (ix2 p d) * (w : S1024x3072.Idx → EReal) (ix2 d q) := by
  unfold k0_pay1
  rw [truncf_apply, shapeCast_self, shapeCast_self]
  refine (Ideal.matmul_constant_zero_apply (φ₁ := .bf16) (φ₂ := .bf16) dot_S1024x1024_S1024x3072_S1024x3072_1_0_0_1_n_n none x w (ix2 p q)).trans ?_
  rw [← Equiv.sum_comp (ValueIdx.contrEquiv1 dot_S1024x1024_S1024x3072_S1024x3072_1_0_0_1_n_n 1024 rfl rfl).symm]
  refine Finset.sum_congr rfl fun k _ => ?_
  have hk := ValueIdx.contrEquiv1_symm_val dot_S1024x1024_S1024x3072_S1024x3072_1_0_0_1_n_n 1024 rfl rfl k
  have el : dot_S1024x1024_S1024x3072_S1024x3072_1_0_0_1_n_n.lhsIdx (ix2 p q) ((ValueIdx.contrEquiv1 dot_S1024x1024_S1024x3072_S1024x3072_1_0_0_1_n_n 1024 rfl rfl).symm k) = ix2 p k := funext fun a => Fin.ext (by
    match a with
    | ⟨0, _⟩ => exact dot0_lhs_0 _ _
    | ⟨1, _⟩ => exact (dot0_lhs_1 _ _).trans hk)
  have er : dot_S1024x1024_S1024x3072_S1024x3072_1_0_0_1_n_n.rhsIdx (ix2 p q) ((ValueIdx.contrEquiv1 dot_S1024x1024_S1024x3072_S1024x3072_1_0_0_1_n_n 1024 rfl rfl).symm k) = ix2 k q := funext fun a => Fin.ext (by
    match a with
    | ⟨0, _⟩ => exact (dot0_rhs_0 _ _).trans hk
    | ⟨1, _⟩ => exact dot0_rhs_1 _ _)
  rw [el, er]

/-! ## From blocks to the array

Point `t` of the four-point grid holds block `(t, 0)` of the left array (rows `t·1024 … t·1024 + 1023`), the whole right
array, and writes block `(t, 0)` of the result. So what it writes back is the block at `t` of ONE function of the two
arrays, the matrix product read at the array's own index; the four blocks tile the rows, so the array ends as that
function. -/

private theorem zeroOffsets : (![0, 0] : Fin 2 → Nat) = fun _ => 0 := funext fun a => by fin_cases a <;> rfl

/-- The matrix product of two arrays as an array: at index `i`, row `i 0` of the left against column `i 1` of the right. -/
private def prodArr {n k p : Nat} (A : (⟨2, ![n, k]⟩ : Shape).Idx → EReal) (B : (⟨2, ![k, p]⟩ : Shape).Idx → EReal) :
    (⟨2, ![n, p]⟩ : Shape).Idx → EReal :=
  fun i => matProd A B ⟨(i 0).val, idx2_lt0 i⟩ ⟨(i 1).val, idx2_lt1 i⟩

private theorem prodArr_ix2 {n k p : Nat} (A : (⟨2, ![n, k]⟩ : Shape).Idx → EReal) (B : (⟨2, ![k, p]⟩ : Shape).Idx → EReal)
    (r : Fin n) (e : Fin p) : prodArr A B (ix2 r e) = matProd A B r e := rfl

/-- One block of region 0's result: if the left block `xb` is rows `n·1024 …` of the array `X` and the right block `wb` is
    the array `W`, the body's product at block index `j` is the arrays' product at the array index `i` that `j` sits at. -/
private theorem blockProd0 (X : S4096x1024.Idx → EReal) (W : S1024x3072.Idx → EReal)
    (xb : FVec Ideal S1024x1024 .bf16) (wb : FVec Ideal S1024x3072 .bf16) (n : Nat)
    (hx : ∀ (y : S1024x1024.Idx) (k : S4096x1024.Idx), (k 0).val = n * 1024 + (y 0).val → (k 1).val = (y 1).val → xb y = X k)
    (hw : ∀ y : S1024x3072.Idx, wb y = W y)
    (j : S1024x3072.Idx) (i : S4096x3072.Idx) (hi0 : (i 0).val = n * 1024 + (j 0).val) (hi1 : (i 1).val = (j 1).val) :
    ((k0_pay1 (F := Ideal) xb wb : FVec Ideal S1024x3072 .bf16) : S1024x3072.Idx → EReal) j = prodArr X W i := by
  obtain ⟨p, q, rfl⟩ : ∃ (p : Fin 1024) (q : Fin 3072), j = ix2 p q := ⟨j 0, j 1, eq_ix2 j⟩
  have e1 : (⟨(i 1).val, idx2_lt1 i⟩ : Fin 3072) = q := Fin.ext hi1
  rw [body0_apply]
  unfold prodArr matProd
  rw [e1]
  refine Finset.sum_congr rfl fun d _ => ?_
  rw [hx (ix2 p d) (ix2 ⟨(i 0).val, idx2_lt0 i⟩ d) hi0 rfl, hw]

/-- The arrays region 0 is entered with, at their literal types. -/
private abbrev leftArr0 (c : Dev nD) : S4096x1024.Idx → EReal := V c main_v1
private abbrev rightArr0 (c : Dev nD) : S1024x3072.Idx → EReal := V c main_v4

/-- The printed index maps over the grid: the left and the result windows are at block `(t, 0)`, the right window at
    block `(0, 0)`. -/
private theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point `t` is rows `t·1024 …` of the left array. -/
private theorem leftBlk0_apply (c : Dev nD) (t : Fin cfg0.N) (y : S1024x1024.Idx) (k : S4096x1024.Idx)
    (hk0 : (k 0).val = t.val * 1024 + (y 0).val) (hk1 : (k 1).val = (y 1).val) :
    (iblk0 V c 0 t : FVec Ideal S1024x1024 .bf16) y = leftArr0 V c k := by
  obtain ⟨e0, e1, -⟩ := blockIdx0 t
  unfold iblk0
  rw [View.read_apply]
  show V c main_v1 _ = V c main_v1 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- The right window's block at every point is the right array. -/
private theorem rightBlk0_apply (c : Dev nD) (t : Fin cfg0.N) (y : S1024x3072.Idx) :
    (iblk0 V c 1 t : FVec Ideal S1024x3072 .bf16) y = rightArr0 V c y := by
  obtain ⟨-, -, e0, e1, -⟩ := blockIdx0 t
  unfold iblk0
  rw [View.read_apply]
  show V c main_v4 _ = V c main_v4 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 3072 + 1 * (y 1).val = (y 1).val; rw [e1]; omega

/-- What point `t` writes back is block `t` of the arrays' product. -/
private theorem written0_eq (c : Dev nD) (t : Fin cfg0.N) :
    (dat0 V c).flushed 2 t = ((cfg0.win 2).blk t).view.read (Elt Ideal) (prodArr (leftArr0 V c) (rightArr0 V c)) := by
  show (cfg0.win 2).cut (grid0.coords t) ((dat0 V c).after 2 t) = _
  rw [after0_2]
  unfold out0_2
  rw [View.canon_unit_zero zeroOffsets]
  simp only [View.ld_unit_zero (S := S1024x1024) zeroOffsets, View.ld_unit_zero (S := S1024x3072) zeroOffsets]
  obtain ⟨-, -, -, -, e0, e1⟩ := blockIdx0 t
  funext j
  refine blockProd0 (leftArr0 V c) (rightArr0 V c) (iblk0 V c 0 t) (iblk0 V c 1 t) t.val
    (leftBlk0_apply V c t) (rightBlk0_apply V c t) ((cfg0.win 2).xinj (grid0.coords t) j) (((cfg0.win 2).blk t).view.emb j) ?_ ?_
  · show win0_2.index t (0 : Fin 2) * 1024 + 1 * (j 0).val = t.val * 1024 + (j 0).val
    rw [e0]; omega
  · show win0_2.index t (1 : Fin 2) * 3072 + 1 * (j 1).val = (j 1).val
    rw [e1]; omega

/-- An index of the result array is in point `t`'s block iff each coordinate is in the block's range on its axis. -/
private theorem mem_resultBlk0 (t : Fin cfg0.N) (i : S4096x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v5).slice (win0_2.rect t)).set ↔ _
  rw [View.set_slice_whole, Rect.mem_set_unit]
  exact Iff.rfl

/-- Row `r` of the result is in the block of point `r / 1024`. -/
private theorem rows_covered0 (i : S4096x3072.Idx) : ∃ t : Fin cfg0.N, (cfg0.win 2).flush t = true ∧ i ∈ ((cfg0.win 2).blk t).view.set := by
  have hi0 : (i 0).val < 4096 := idx2_lt0 i
  have hi1 : (i 1).val < 3072 := idx2_lt1 i
  have hN : grid0.N = 4 := N_0
  let t : Fin cfg0.N := ⟨(i 0).val / 1024, by show (i 0).val / 1024 < grid0.N; rw [hN]; omega⟩
  obtain ⟨-, -, -, -, e0, e1⟩ := blockIdx0 t
  have ht : t.val = (i 0).val / 1024 := rfl
  refine ⟨t, flush0_2 t, ?_⟩
  rw [mem_resultBlk0]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 3072 ≤ (i 1).val ∧ (i 1).val < win0_2.index t (1 : Fin 2) * 3072 + 3072; rw [e1]; omega

/-- So region 0's result array ends as the product of the two arrays it was entered with. -/
private theorem result0_eq (c : Dev nD) : (dat0 V c).arrAt 2 cfg0.N = prodArr (leftArr0 V c) (rightArr0 V c) :=
  (dat0 V c).arrAt_eq_of_cover 2 (prodArr (leftArr0 V c) (rightArr0 V c)) (fun t _ => written0_eq V c t) rows_covered0

/-- Region 0: the projection array is x times the stacked, transposed weights. -/
theorem arrAt0 (c : Dev nD) (r : Fin 4096) (e : Fin 3072) :
    ((dat0 V c).arrAt 2 cfg0.N : S4096x3072.Idx → EReal) (ix2 r e)
      = matProd (V c main_v1 : S4096x1024.Idx → EReal) (V c main_v4 : S1024x3072.Idx → EReal) r e := by
  rw [result0_eq V c]
  rfl

/-! ## Region 2: the same product with a 1024-column right operand, kept in the accumulator's format -/

private theorem dot2_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
private theorem dot2_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
private theorem dot2_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
private theorem dot2_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Region 2's body at row `p`, column `q` of its block. -/
private theorem body2_apply (x : FVec Ideal S1024x1024 .bf16) (w : FVec Ideal S1024x1024 .bf16) (p : Fin 1024) (q : Fin 1024) :
    ((k2_pay1 (F := Ideal) x w : FVec Ideal S1024x1024 .f32) : S1024x1024.Idx → EReal) (ix2 p q)
      = ∑ d : Fin 1024, (x : S1024x1024.Idx → EReal) (ix2 p d) * (w : S1024x1024.Idx → EReal) (ix2 d q) := by
  unfold k2_pay1
  rw [shapeCast_self, shapeCast_self]
  refine (Ideal.matmul_constant_zero_apply (φ₁ := .bf16) (φ₂ := .bf16) dot_S1024x1024_S1024x1024_S1024x1024_1_0_0_1_n_n none x w (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact dot2_lhs_0 _ _
    | ⟨1, _⟩ => exact (dot2_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dot2_rhs_0 _ _).trans hk
    | ⟨1, _⟩ => exact dot2_rhs_1 _ _)
  rw [el, er]

/-- One block of region 2's result, as for region 0. -/
private theorem blockProd2 (X : S4096x1024.Idx → EReal) (W : S1024x1024.Idx → EReal)
    (xb : FVec Ideal S1024x1024 .bf16) (wb : FVec Ideal S1024x1024 .bf16) (n : Nat)
    (hx : ∀ (y : S1024x1024.Idx) (k : S4096x1024.Idx), (k 0).val = n * 1024 + (y 0).val → (k 1).val = (y 1).val → xb y = X k)
    (hw : ∀ y : S1024x1024.Idx, wb y = W y)
    (j : S1024x1024.Idx) (i : S4096x1024.Idx) (hi0 : (i 0).val = n * 1024 + (j 0).val) (hi1 : (i 1).val = (j 1).val) :
    ((k2_pay1 (F := Ideal) xb wb : FVec Ideal S1024x1024 .f32) : S1024x1024.Idx → EReal) j = prodArr X W i := by
  obtain ⟨p, q, rfl⟩ : ∃ (p : Fin 1024) (q : Fin 1024), j = ix2 p q := ⟨j 0, j 1, eq_ix2 j⟩
  have e1 : (⟨(i 1).val, idx2_lt1 i⟩ : Fin 1024) = q := Fin.ext hi1
  rw [body2_apply]
  unfold prodArr matProd
  rw [e1]
  refine Finset.sum_congr rfl fun d _ => ?_
  rw [hx (ix2 p d) (ix2 ⟨(i 0).val, idx2_lt0 i⟩ d) hi0 rfl, hw]

/-- The arrays region 2 is entered with, at their literal types. -/
private abbrev leftArr2 (c : Dev nD) : S4096x1024.Idx → EReal := V c main_v48
private abbrev rightArr2 (c : Dev nD) : S1024x1024.Idx → EReal := V c main_v50

/-- The printed index maps over region 2's grid: the left and the result windows are at block `(t, 0)`, the right window
    at block `(0, 0)`. -/
private theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left window's block at point `t` is rows `t·1024 …` of the left array. -/
private theorem leftBlk2_apply (c : Dev nD) (t : Fin cfg2.N) (y : S1024x1024.Idx) (k : S4096x1024.Idx)
    (hk0 : (k 0).val = t.val * 1024 + (y 0).val) (hk1 : (k 1).val = (y 1).val) :
    (iblk2 V c 0 t : FVec Ideal S1024x1024 .bf16) y = leftArr2 V c k := by
  obtain ⟨e0, e1, -⟩ := blockIdx2 t
  unfold iblk2
  rw [View.read_apply]
  show V c main_v48 _ = V c main_v48 _
  congr 1
  funext a
  apply Fin.ext
  match a with
  | ⟨0, _⟩ => show win2_0.index t (0 : Fin 2) * 1024 + 1 * (y 0).val = (k 0).val; rw [e0, hk0]; omega
  | ⟨1, _⟩ => show win2_0.index t (1 : Fin 2) * 1024 + 1 * (y 1).val = (k 1).val; rw [e1, hk1]; omega

/-- The right window's block at every point is the right array. -/
private theorem rightBlk2_apply (c : Dev nD) (t : Fin cfg2.N) (y : S1024x1024.Idx) :
    (iblk2 V c 1 t : FVec Ideal S1024x1024 .bf16) y = rightArr2 V c y := by
  obtain ⟨-, -, e0, e1, -⟩ := blockIdx2 t
  unfold iblk2
  rw [View.read_apply]
  show V c main_v50 _ = V c main_v50 _
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 1024 + 1 * (y 1).val = (y 1).val; rw [e1]; omega

/-- What point `t` writes back is block `t` of the arrays' product. -/
private theorem written2_eq (c : Dev nD) (t : Fin cfg2.N) :
    (dat2 V c).flushed 2 t = ((cfg2.win 2).blk t).view.read (Elt Ideal) (prodArr (leftArr2 V c) (rightArr2 V c)) := by
  show (cfg2.win 2).cut (grid2.coords t) ((dat2 V c).after 2 t) = _
  rw [after2_2]
  unfold out2_2
  rw [View.canon_unit_zero zeroOffsets]
  simp only [View.ld_unit_zero (S := S1024x1024) zeroOffsets]
  obtain ⟨-, -, -, -, e0, e1⟩ := blockIdx2 t
  funext j
  refine blockProd2 (leftArr2 V c) (rightArr2 V c) (iblk2 V c 0 t) (iblk2 V c 1 t) t.val
    (leftBlk2_apply V c t) (rightBlk2_apply V c t) ((cfg2.win 2).xinj (grid2.coords t) j) (((cfg2.win 2).blk t).view.emb j) ?_ ?_
  · show win2_2.index t (0 : Fin 2) * 1024 + 1 * (j 0).val = t.val * 1024 + (j 0).val
    rw [e0]; omega
  · show win2_2.index t (1 : Fin 2) * 1024 + 1 * (j 1).val = (j 1).val
    rw [e1]; omega

/-- An index of the result array is in point `t`'s block iff each coordinate is in the block's range on its axis. -/
private theorem mem_resultBlk2 (t : Fin cfg2.N) (i : S4096x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v51).slice (win2_2.rect t)).set ↔ _
  rw [View.set_slice_whole, Rect.mem_set_unit]
  exact Iff.rfl

/-- Row `r` of the result is in the block of point `r / 1024`. -/
private theorem rows_covered2 (i : S4096x1024.Idx) : ∃ t : Fin cfg2.N, (cfg2.win 2).flush t = true ∧ i ∈ ((cfg2.win 2).blk t).view.set := by
  have hi0 : (i 0).val < 4096 := idx2_lt0 i
  have hi1 : (i 1).val < 1024 := idx2_lt1 i
  have hN : grid2.N = 4 := N_2
  let t : Fin cfg2.N := ⟨(i 0).val / 1024, by show (i 0).val / 1024 < grid2.N; rw [hN]; omega⟩
  obtain ⟨-, -, -, -, e0, e1⟩ := blockIdx2 t
  have ht : t.val = (i 0).val / 1024 := rfl
  refine ⟨t, flush2_2 t, ?_⟩
  rw [mem_resultBlk2]
  intro a
  match a with
  | ⟨0, _⟩ => show win2_2.index t (0 : Fin 2) * 1024 ≤ (i 0).val ∧ (i 0).val < win2_2.index t (0 : Fin 2) * 1024 + 1024; rw [e0, ht]; omega
  | ⟨1, _⟩ => show win2_2.index t (1 : Fin 2) * 1024 ≤ (i 1).val ∧ (i 1).val < win2_2.index t (1 : Fin 2) * 1024 + 1024; rw [e1]; omega

/-- So region 2's result array ends as the product of the two arrays it was entered with. -/
private theorem result2_eq (c : Dev nD) : (dat2 V c).arrAt 2 cfg2.N = prodArr (leftArr2 V c) (rightArr2 V c) :=
  (dat2 V c).arrAt_eq_of_cover 2 (prodArr (leftArr2 V c) (rightArr2 V c)) (fun t _ => written2_eq V c t) rows_covered2

/-- Region 2: the result array is the attention output times the transposed output weight. -/
theorem arrAt2 (c : Dev nD) (r : Fin 4096) (e : Fin 1024) :
    ((dat2 V c).arrAt 2 cfg2.N : S4096x1024.Idx → EReal) (ix2 r e)
      = matProd (V c main_v48 : S4096x1024.Idx → EReal) (V c main_v50 : S1024x1024.Idx → EReal) r e := by
  rw [result2_eq V c]
  rfl

end Cert.KernelIdeal.Hand

end
-- ==== Proof.KVal1.lean ====
/-
  What region 1 leaves in the attention output array after the last grid point, read at an index, at the ideal instance:
  row r, head h, column j is the attention row of the projection array and the bias array the region was entered with.
  Grid point (hp, qi, bb) writes rows bb·2048 + qi·512 … +511, columns hp·128 … +127; the points tile the array.
-/
import proofs.«401496_j88184268521511_3_alg».proof.Proof.Body1
import proofs.«401496_j88184268521511_3_alg».proof.Proof.ValSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

open Idealize.ShloMosaic.Pipeline (Dat)

variable (V : (c : Dev nD) → (b : Ref sig .tc) → Buf (Elt Ideal) ((c : Thread nD τ).loc b))

/-! ## The two products of the body, read at an index -/

private theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
private theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
private theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
private theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Queries times keys: entry (y, k) is the inner product of query row y and key row k over the 64 head columns. -/
private theorem qk_apply (q : FVec Ideal S512x64 .bf16) (k : FVec Ideal S2048x64 .bf16) (y : Fin 512) (k' : Fin 2048) :
    matmul dot_S512x64_S2048x64_S512x2048_1_1_0_0_n_n none q k (constant (F := Ideal) S512x2048 .f32 0x00000000#32) (ix2 y k')
      = ∑ d : Fin 64, q (ix2 y d) * k (ix2 k' d) := by
  refine (Ideal.matmul_constant_zero_apply dot_S512x64_S2048x64_S512x2048_1_1_0_0_n_n none q k (ix2 y k')).trans ?_
  rw [← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 y k') ((ValueIdx.contrEquiv1 dot_S512x64_S2048x64_S512x2048_1_1_0_0_n_n 64 rfl rfl).symm d) = ix2 y d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 y k') ((ValueIdx.contrEquiv1 dot_S512x64_S2048x64_S512x2048_1_1_0_0_n_n 64 rfl rfl).symm d) = ix2 k' d := funext fun a => Fin.ext (by
    match a with
    | ⟨0, _⟩ => exact rhs_qk_0 _ _
    | ⟨1, _⟩ => exact (rhs_qk_1 _ _).trans hk)
  rw [el, er]

private theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
private theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
private theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
private theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Probabilities times values: entry (y, j) is the sum over the 2048 keys of the probability of key k times value row k. -/
private theorem pv_apply (p : FVec Ideal S512x2048 .bf16) (v : FVec Ideal S2048x64 .bf16) (y : Fin 512) (j : Fin 64) :
    matmul dot_S512x2048_S2048x64_S512x64_1_0_0_1_n_n none p v (constant (F := Ideal) S512x64 .f32 0x00000000#32) (ix2 y j)
      = ∑ k : Fin 2048, p (ix2 y k) * v (ix2 k j) := by
  refine (Ideal.matmul_constant_zero_apply dot_S512x2048_S2048x64_S512x64_1_0_0_1_n_n none p v (ix2 y j)).trans ?_
  rw [← Equiv.sum_comp (ValueIdx.contrEquiv1 dot_S512x2048_S2048x64_S512x64_1_0_0_1_n_n 2048 rfl rfl).symm]
  refine Finset.sum_congr rfl fun d _ => ?_
  have hk := ValueIdx.contrEquiv1_symm_val dot_S512x2048_S2048x64_S512x64_1_0_0_1_n_n 2048 rfl rfl d
  have el : dot_S512x2048_S2048x64_S512x64_1_0_0_1_n_n.lhsIdx (ix2 y j) ((ValueIdx.contrEquiv1 dot_S512x2048_S2048x64_S512x64_1_0_0_1_n_n 2048 rfl rfl).symm d) = ix2 y d := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 y j) ((ValueIdx.contrEquiv1 dot_S512x2048_S2048x64_S512x64_1_0_0_1_n_n 2048 rfl rfl).symm d) = ix2 d j := funext fun a => Fin.ext (by
    match a with
    | ⟨0, _⟩ => exact (rhs_pv_0 _ _).trans hk
    | ⟨1, _⟩ => exact rhs_pv_1 _ _)
  rw [el, er]

/-! ## The row reductions and the layout steps of the body, read at an index -/

/-- The row maximum: entry y is the maximum, folded from −∞, of row y. -/
private theorem rowmax_apply (s : FVec Ideal S512x2048 .f32) (y : Fin 512) :
    multiReduction (F := Ideal) .maximumf [1] S512 s 0xFF800000#32 reduces_S512x2048_S512 (.inl rfl) rfl (ix1 y)
      = rowMax (fun k : Fin 2048 => s (ix2 y k)) := by
  refine (Ideal.multiReduction_maximumf_single s 0xFF800000#32 reduces_S512x2048_S512 (.inl rfl) rfl (ix1 y)).trans ?_
  have e : (s ∘ reduces_S512x2048_S512.lift (ix1 y)) = fun k : Fin 2048 => s (ix2 y k) :=
    funext fun k => congrArg s (funext fun a => by match a with | ⟨0, _⟩ => rfl | ⟨1, _⟩ => rfl)
  rw [e]
  rfl

/-- The row sum: entry y is the sum of row y. -/
private theorem rowsum_apply (s : FVec Ideal S512x2048 .f32) (y : Fin 512) :
    multiReduction (F := Ideal) .add [1] S512 s 0x00000000#32 reduces_S512x2048_S512 (.inl rfl) rfl (ix1 y)
      = ∑ k : Fin 2048, s (ix2 y k) := by
  refine (Ideal.multiReduction_add_single s 0x00000000#32 reduces_S512x2048_S512 (.inl rfl) rfl (ix1 y)).trans ?_
  refine Finset.sum_congr rfl fun k _ => congrArg s (funext fun a => by match a with | ⟨0, _⟩ => rfl | ⟨1, _⟩ => rfl)

/-- A column of row statistics spread over the row: entry (y, k) of the broadcast of the 512×1 cast of m is m at y. -/
private theorem keepdims_apply (m : FVec Ideal S512 .f32) (y : Fin 512) (k : Fin 2048) :
    broadcastTo S512x2048 (shapeCast S512x1 m shapeCasts_S512_S512x1) broadcasts_S512x1_S512x2048 (ix2 y k) = m (ix1 y) := by
  refine (broadcastTo_apply (shapeCast S512x1 m shapeCasts_S512_S512x1) broadcasts_S512x1_S512x2048 (ix2 y k) (ix2 y (0 : Fin 1)) fun a => ?_).trans ?_
  · match a with
    | ⟨0, _⟩ => rfl
    | ⟨1, _⟩ => rfl
  · refine shapeCast_apply m shapeCasts_S512_S512x1 (ix2 y (0 : Fin 1)) (ix1 y) ?_
    rw [Shape.rowMajor_val_two, Shape.rowMajor_val_one]
    show y.val = y.val * 1 + 0
    omega

/-- A head's bias tile with its unit axis dropped: entry (y, k) is the tile at (0, y, k). -/
private theorem bias_apply (b : FVec Ideal S1x512x2048 .bf16) (y : Fin 512) (k : Fin 2048) :
    shapeCast S512x2048 b shapeCasts_S1x512x2048_S512x2048 (ix2 y k) = b (ix3 (0 : Fin 1) y k) :=
  shapeCast_1ab_ab_apply b shapeCasts_S1x512x2048_S512x2048 y k

/-! ## One head's attention on a block, as a term and at an index -/

/-- The score block: queries times keys, scaled by 1/8, plus the bias tile. -/
private def scoresV (q : FVec Ideal S512x64 .bf16) (k : FVec Ideal S2048x64 .bf16) (b : FVec Ideal S1x512x2048 .bf16) : FVec Ideal S512x2048 .f32 :=
  addf (mulf (matmul dot_S512x64_S2048x64_S512x2048_1_1_0_0_n_n none q k (constant (F := Ideal) S512x2048 .f32 0x00000000#32))
      (broadcast S512x2048 (Scalar.ofBits (F := Ideal) .f32 0x3E000000#32)))
    (extf .f32 (shapeCast S512x2048 b shapeCasts_S1x512x2048_S512x2048) bitsLt_bf16_f32)

/-- The exponentials of a block's entries less their row's maximum. -/
private def expV (s : FVec Ideal S512x2048 .f32) : FVec Ideal S512x2048 .f32 :=
  exp (subf s (broadcastTo S512x2048 (shapeCast S512x1
    (multiReduction (F := Ideal) .maximumf [1] S512 s 0xFF800000#32 reduces_S512x2048_S512 (.inl rfl) rfl) shapeCasts_S512_S512x1) broadcasts_S512x1_S512x2048))

/-- The row-wise softmax of a block. -/
private def softV (s : FVec Ideal S512x2048 .f32) : FVec Ideal S512x2048 .f32 :=
  divf (expV s) (broadcastTo S512x2048 (shapeCast S512x1
    (multiReduction (F := Ideal) .add [1] S512 (expV s) 0x00000000#32 reduces_S512x2048_S512 (.inl rfl) rfl) shapeCasts_S512_S512x1) broadcasts_S512x1_S512x2048)

/-- One head's output block: the softmax of the scores times the values. -/
private def headOut (q : FVec Ideal S512x64 .bf16) (k v : FVec Ideal S2048x64 .bf16) (b : FVec Ideal S1x512x2048 .bf16) : FVec Ideal S512x64 .bf16 :=
  truncf .bf16 (matmul dot_S512x2048_S2048x64_S512x64_1_0_0_1_n_n none (truncf .bf16 (softV (scoresV q k b)) bitsLt_bf16_f32) v
    (constant (F := Ideal) S512x64 .f32 0x00000000#32)) bitsLt_bf16_f32

/-- The first head's payload is that term of its loads, -/
private theorem pay2_eq (q : Vec Ideal S512x64 .bf16) (k v : Vec Ideal S2048x64 .bf16) (b : Vec Ideal S1x512x2048 .bf16) :
    k1_pay2 (F := Ideal) q k v b = headOut (shapeCast S512x64 q shapeCasts_S512x64_S512x64) (shapeCast S2048x64 k shapeCasts_S2048x64_S2048x64)
      (shapeCast S2048x64 v shapeCasts_S2048x64_S2048x64) b := rfl
/-- and so is the second head's. -/
private theorem pay1_eq (q : Vec Ideal S512x64 .bf16) (k v : Vec Ideal S2048x64 .bf16) (b : Vec Ideal S1x512x2048 .bf16) :
    k1_pay1 (F := Ideal) (k1_pay3 q) (k1_pay4 k) v b = headOut (shapeCast S512x64 q shapeCasts_S512x64_S512x64) (shapeCast S2048x64 k shapeCasts_S2048x64_S2048x64)
      (shapeCast S2048x64 v shapeCasts_S2048x64_S2048x64) b := rfl

/-- One head's score of query row y of a block against key k of the batch's keys: the inner product over the head's 64
    columns, scaled by 1/8, plus the bias tile's entry. -/
private def blkScore (q : S512x64.Idx → EReal) (k : S2048x64.Idx → EReal) (b : S1x512x2048.Idx → EReal) (y : Fin 512) (k' : Fin 2048) : EReal :=
  (∑ d : Fin 64, q (ix2 y d) * k (ix2 k' d)) * Ideal.ofBits .f32 0x3E000000#32 + b (ix3 (0 : Fin 1) y k')

private theorem scoresV_apply (q : FVec Ideal S512x64 .bf16) (k : FVec Ideal S2048x64 .bf16) (b : FVec Ideal S1x512x2048 .bf16)
    (y : Fin 512) (k' : Fin 2048) : scoresV q k b (ix2 y k') = blkScore q k b y k' := by
  unfold scoresV blkScore
  refine (addf_apply _ _ _).trans ?_
  refine congrArg₂ (· + ·) ?_ ?_
  · refine (mulf_apply _ _ _).trans ?_
    exact congrArg (· * Ideal.ofBits .f32 0x3E000000#32) (qk_apply q k y k')
  · exact (extf_apply (ψ := .f32) _ bitsLt_bf16_f32 _).trans (bias_apply b y k')

private theorem expV_apply (s : FVec Ideal S512x2048 .f32) (y : Fin 512) (k' : Fin 2048) :
    expV s (ix2 y k') = Ideal.exp (s (ix2 y k') - rowMax (fun k : Fin 2048 => s (ix2 y k))) := by
  unfold expV
  exact congrArg (fun m => Ideal.exp (s (ix2 y k') - m)) ((keepdims_apply _ y k').trans (rowmax_apply s y))

private theorem softV_apply (s : FVec Ideal S512x2048 .f32) (y : Fin 512) (k' : Fin 2048) :
    softV s (ix2 y k') = softRow (fun k : Fin 2048 => s (ix2 y k)) k' := by
  unfold softV softRow
  refine (divf_apply _ _ _).trans ?_
  refine congrArg₂ Ideal.div (expV_apply s y k') ?_
  refine (keepdims_apply _ y k').trans ?_
  refine (rowsum_apply (expV s) y).trans ?_
  exact Finset.sum_congr rfl fun k _ => expV_apply s y k

/-- One head's output block at (y, j): the softmax of row y's scores against the values' column j. -/
private theorem headOut_apply (q : FVec Ideal S512x64 .bf16) (k v : FVec Ideal S2048x64 .bf16) (b : FVec Ideal S1x512x2048 .bf16)
    (y : Fin 512) (j : Fin 64) :
    headOut q k v b (ix2 y j) = ∑ kk : Fin 2048, softRow (blkScore q k b y) kk * v (ix2 kk j) := by
  unfold headOut
  refine (truncf_apply (ψ := .bf16) _ bitsLt_bf16_f32 _).trans ?_
  refine (pv_apply _ v y j).trans ?_
  refine Finset.sum_congr rfl fun kk _ => congrArg (· * v (ix2 kk j)) ?_
  refine (truncf_apply (ψ := .bf16) _ bitsLt_bf16_f32 _).trans ?_
  refine (softV_apply _ y kk).trans ?_
  exact congrArg (fun s => softRow s kk) (funext fun k' => scoresV_apply q k b y k')

/-! ## A head's block against the attention row of the two arrays -/

/-- If a head's four loads read, at block row y, the query row r, the keys and values of r's batch and the bias row of r's
    position, all at head h's columns, then its output at (y, j) is the attention row of r and h at j. -/
private theorem headOut_eq_attRow (Q : S4096x3072.Idx → EReal) (B : S16x2048x2048.Idx → EReal)
    (q : FVec Ideal S512x64 .bf16) (k v : FVec Ideal S2048x64 .bf16) (b : FVec Ideal S1x512x2048 .bf16)
    (r : Fin 4096) (h : Fin 16) (y : Fin 512)
    (hq : ∀ d : Fin 64, q (ix2 y d) = Q (ix2 r (colQ h d)))
    (hk : ∀ (k' : Fin 2048) (d : Fin 64), k (ix2 k' d) = Q (ix2 (rowK r k') (colK h d)))
    (hv : ∀ (k' : Fin 2048) (d : Fin 64), v (ix2 k' d) = Q (ix2 (rowK r k') (colV h d)))
    (hb : ∀ k' : Fin 2048, b (ix3 (0 : Fin 1) y k') = B (ix3 h (posOf r) k')) (j : Fin 64) :
    headOut q k v b (ix2 y j) = attRow Q B r h j := by
  refine (headOut_apply q k v b y j).trans ?_
  unfold attRow
  have hs : blkScore q k b y = scoreRow Q B r h := funext fun k' => by
    unfold blkScore scoreRow
    rw [hb k']
    exact congrArg (fun s => s * Ideal.ofBits .f32 0x3E000000#32 + B (ix3 h (posOf r) k'))
      (Finset.sum_congr rfl fun d _ => by rw [hq d, hk k' d])
  rw [hs]
  exact Finset.sum_congr rfl fun kk _ => by rw [hv kk j]

/-! ## The whole output array as one function, and a grid point's block of it -/

/-- The attention output as one function of the projection array and the bias array: row r, column c is head c / 64's
    attention row of r at column c % 64. -/
private def attArr (Q : S4096x3072.Idx → EReal) (B : S16x2048x2048.Idx → EReal) : S4096x1024.Idx → EReal := fun i =>
  attRow Q B ⟨(i 0).val, idx2_lt0 i⟩ ⟨(i 1).val / 64, by have := idx2_lt1 i; omega⟩ ⟨(i 1).val % 64, Nat.mod_lt _ (by decide)⟩

private theorem attRow_congr (Q : S4096x3072.Idx → EReal) (B : S16x2048x2048.Idx → EReal) {r r' : Fin 4096} {h h' : Fin 16} {j j' : Fin 64}
    (hr : r.val = r'.val) (hh : h.val = h'.val) (hj : j.val = j'.val) : attRow Q B r h j = attRow Q B r' h' j' := by
  obtain rfl := Fin.ext hr; obtain rfl := Fin.ext hh; obtain rfl := Fin.ext hj; rfl

private theorem attArr_apply (Q : S4096x3072.Idx → EReal) (B : S16x2048x2048.Idx → EReal) (r : Fin 4096) (col : Fin 1024) (h : Fin 16) (j : Fin 64)
    (hc : col.val = h.val * 64 + j.val) : attArr Q B (ix2 r col) = attRow Q B r h j :=
  attRow_congr Q B rfl (by show col.val / 64 = h.val; have := j.isLt; omega) (by show col.val % 64 = j.val; have := j.isLt; omega)

/-- One head of a grid point. The point's blocks are given by where they sit in the arrays: the query block at block row R
    and block column C, the key and value blocks at block columns 8 + C and 16 + C, the bias block at heads 2C, 2C + 1 and
    rows (R % 4)·512 …; the head hl of the pair reads columns 64·hl … of the query, key and value blocks, the batch R / 4's
    2048 rows of the latter two, and tile hl of the bias block. Its output at (y, j) is the attention row of array row
    R·512 + y and head 2C + hl at j. -/
private theorem head_piece (Q : S4096x3072.Idx → EReal) (B : S16x2048x2048.Idx → EReal)
    (x0 : Vec Ideal S512x128 .bf16) (x1 x2 : Vec Ideal S4096x128 .bf16) (x3 : Vec Ideal S2x512x2048 .bf16)
    (R C hl : Nat) (hR : R < 8) (hC : C < 8) (hhl : hl < 2)
    (offq : Fin 2 → Nat) (inbq : ∀ a, offq a + S512x64.size a ≤ S512x128.size a)
    (offk : Fin 2 → Nat) (inbk : ∀ a, offk a + S2048x64.size a ≤ S4096x128.size a)
    (offb : Fin 3 → Nat) (inbb : ∀ a, offb a + S1x512x2048.size a ≤ S2x512x2048.size a)
    (eq0 : offq 0 = 0) (eq1 : offq 1 = 64 * hl) (ek0 : offk 0 = R / 4 * 2048) (ek1 : offk 1 = 64 * hl)
    (eb0 : offb 0 = hl) (eb1 : offb 1 = 0) (eb2 : offb 2 = 0)
    (h0 : ∀ (y : Fin 512) (e : Fin 128) (r : Fin 4096) (col : Fin 3072), r.val = R * 512 + y.val → col.val = C * 128 + e.val →
      x0 (ix2 y e) = Q (ix2 r col))
    (h1 : ∀ (k : Fin 4096) (e : Fin 128) (col : Fin 3072), col.val = (8 + C) * 128 + e.val → x1 (ix2 k e) = Q (ix2 k col))
    (h2 : ∀ (k : Fin 4096) (e : Fin 128) (col : Fin 3072), col.val = (16 + C) * 128 + e.val → x2 (ix2 k e) = Q (ix2 k col))
    (h3 : ∀ (a : Fin 2) (y : Fin 512) (k : Fin 2048) (h : Fin 16) (p : Fin 2048), h.val = 2 * C + a.val → p.val = R % 4 * 512 + y.val →
      x3 (ix3 a y k) = B (ix3 h p k))
    (y : Fin 512) (j : Fin 64) (r : Fin 4096) (h : Fin 16) (hr : r.val = R * 512 + y.val) (hh : h.val = 2 * C + hl) :
    headOut (View.ld x0 (Rect.unit offq S512x64.size inbq)) (View.ld x1 (Rect.unit offk S2048x64.size inbk))
        (View.ld x2 (Rect.unit offk S2048x64.size inbk)) (View.ld x3 (Rect.unit offb S1x512x2048.size inbb)) (ix2 y j)
      = attRow Q B r h j := by
  have hy := y.isLt
  refine headOut_eq_attRow Q B _ _ _ _ r h y (fun d => ?_) (fun k' d => ?_) (fun k' d => ?_) (fun k' => ?_) j
  · have hd := d.isLt
    show x0 ((Rect.unit (s := S512x128) offq S512x64.size inbq).idx (ix2 y d)) = _
    have e : (Rect.unit (s := S512x128) offq S512x64.size inbq).idx (ix2 y d) = ix2 y (⟨64 * hl + d.val, by omega⟩ : Fin 128) := by
      funext a; apply Fin.ext
      match a with
      | ⟨0, _⟩ => show offq 0 + 1 * y.val = y.val; omega
      | ⟨1, _⟩ => show offq 1 + 1 * d.val = 64 * hl + d.val; omega
    rw [e]
    exact h0 y _ r (colQ h d) hr (by show h.val * 64 + d.val = C * 128 + (64 * hl + d.val); omega)
  · have hd := d.isLt; have hk' := k'.isLt
    show x1 ((Rect.unit (s := S4096x128) offk S2048x64.size inbk).idx (ix2 k' d)) = _
    have e : (Rect.unit (s := S4096x128) offk S2048x64.size inbk).idx (ix2 k' d) = ix2 (rowK r k') (⟨64 * hl + d.val, by omega⟩ : Fin 128) := by
      funext a; apply Fin.ext
      match a with
      | ⟨0, _⟩ => show offk 0 + 1 * k'.val = r.val / 2048 * 2048 + k'.val; omega
      | ⟨1, _⟩ => show offk 1 + 1 * d.val = 64 * hl + d.val; omega
    rw [e]
    exact h1 _ _ (colK h d) (by show 1024 + h.val * 64 + d.val = (8 + C) * 128 + (64 * hl + d.val); omega)
  · have hd := d.isLt; have hk' := k'.isLt
    show x2 ((Rect.unit (s := S4096x128) offk S2048x64.size inbk).idx (ix2 k' d)) = _
    have e : (Rect.unit (s := S4096x128) offk S2048x64.size inbk).idx (ix2 k' d) = ix2 (rowK r k') (⟨64 * hl + d.val, by omega⟩ : Fin 128) := by
      funext a; apply Fin.ext
      match a with
      | ⟨0, _⟩ => show offk 0 + 1 * k'.val = r.val / 2048 * 2048 + k'.val; omega
      | ⟨1, _⟩ => show offk 1 + 1 * d.val = 64 * hl + d.val; omega
    rw [e]
    exact h2 _ _ (colV h d) (by show 2048 + h.val * 64 + d.val = (16 + C) * 128 + (64 * hl + d.val); omega)
  · show x3 ((Rect.unit (s := S2x512x2048) offb S1x512x2048.size inbb).idx (ix3 (0 : Fin 1) y k')) = _
    have e : (Rect.unit (s := S2x512x2048) offb S1x512x2048.size inbb).idx (ix3 (0 : Fin 1) y k') = ix3 (⟨hl, hhl⟩ : Fin 2) y k' := by
      funext a; apply Fin.ext
      match a with
      | ⟨0, _⟩ => show offb 0 + 1 * 0 = hl; omega
      | ⟨1, _⟩ => show offb 1 + 1 * y.val = y.val; omega
      | ⟨2, _⟩ => show offb 2 + 1 * k'.val = k'.val; omega
    rw [e]
    exact h3 _ y k' h (posOf r) hh (by show r.val % 2048 = R % 4 * 512 + y.val; omega)

/-- The block of the whole-array function at block row R and block column C, as a function of the index inside the block. -/
private def attBlk (Q : S4096x3072.Idx → EReal) (B : S16x2048x2048.Idx → EReal) (R C : Nat) (hR : R < 8) (hC : C < 8) : S512x128.Idx → EReal :=
  fun jj => attArr Q B (ix2 (⟨R * 512 + (jj 0).val, by have := idx2_lt0 jj; omega⟩ : Fin 4096)
    (⟨C * 128 + (jj 1).val, by have := idx2_lt1 jj; omega⟩ : Fin 1024))

/-- A grid point's output block at an index. The two stores tile the 512×128 block by columns, columns 0…63 the first head's
    and 64…127 the second head's, and each store's payload is that head's 64 columns of the block of the whole-array
    function: so the buffer holds that block, and its entry at block index j is the function at the array index i that j
    sits at. -/
private theorem outBlock1 (Q : S4096x3072.Idx → EReal) (B : S16x2048x2048.Idx → EReal) (g : grid1.Coords)
    (x0 : Vec Ideal S512x128 .bf16) (x1 x2 : Vec Ideal S4096x128 .bf16) (x3 : Vec Ideal S2x512x2048 .bf16)
    (R C : Nat) (hR : R < 8) (hC : C < 8)
    (ek1_0 : k1_off1 g 0 = R / 4 * 2048) (ek1_1 : k1_off1 g 1 = 0)
    (ek2_0 : k1_off2 g 0 = R / 4 * 2048) (ek2_1 : k1_off2 g 1 = 64)
    (h0 : ∀ (y : Fin 512) (e : Fin 128) (r : Fin 4096) (col : Fin 3072), r.val = R * 512 + y.val → col.val = C * 128 + e.val →
      x0 (ix2 y e) = Q (ix2 r col))
    (h1 : ∀ (k : Fin 4096) (e : Fin 128) (col : Fin 3072), col.val = (8 + C) * 128 + e.val → x1 (ix2 k e) = Q (ix2 k col))
    (h2 : ∀ (k : Fin 4096) (e : Fin 128) (col : Fin 3072), col.val = (16 + C) * 128 + e.val → x2 (ix2 k e) = Q (ix2 k col))
    (h3 : ∀ (a : Fin 2) (y : Fin 512) (k : Fin 2048) (h : Fin 16) (p : Fin 2048), h.val = 2 * C + a.val → p.val = R % 4 * 512 + y.val →
      x3 (ix3 a y k) = B (ix3 h p k))
    (j : S512x128.Idx) (i : S4096x1024.Idx) (hi0 : (i 0).val = R * 512 + (j 0).val) (hi1 : (i 1).val = C * 128 + (j 1).val) :
    out1_4 g x0 x1 x2 x3 j = attArr Q B i := by
  have hG : attBlk Q B R C hR hC j = attArr Q B i := congrArg (attArr Q B) (funext fun a => Fin.ext (by
    match a with
    | ⟨0, _⟩ => exact hi0.symm
    | ⟨1, _⟩ => exact hi1.symm))
  refine Eq.trans ?_ hG
  unfold out1_4
  refine View.canon_apply_of_pieces (Val := Elt Ideal) (S := S512x128) (e := .bf16) (attBlk Q B R C hR hC) _ ?_ j (cover1_4 _ _ j)
  intro p hp
  rcases List.mem_cons.mp hp with rfl | hp
  · intro x
    obtain ⟨y, d, rfl⟩ : ∃ (y : Fin 512) (d : Fin 64), x = ix2 y d := ⟨x 0, x 1, eq_ix2 x⟩
    have hy := y.isLt
    have hd := d.isLt
    show k1_pay1 (F := Ideal) (k1_pay3 (View.ld x0 rHi)) (k1_pay4 (View.ld x1 (rKhi g))) (View.ld x2 (rKhi g)) (View.ld x3 rB1) (ix2 y d)
      = attBlk Q B R C hR hC (rHi.emb (ix2 y d))
    rw [pay1_eq]
    simp only [shapeCast_self]
    refine (head_piece Q B x0 x1 x2 x3 R C 1 hR hC (by omega) ![0, 64] inb_S512x128_S512x64_0_64 (k1_off2 g) (k1_off2_inb g)
      ![1, 0, 0] inb_S2x512x2048_S1x512x2048_1_0_0 rfl rfl ek2_0 ek2_1 rfl rfl rfl h0 h1 h2 h3 y d
      ⟨R * 512 + y.val, by omega⟩ ⟨2 * C + 1, by omega⟩ rfl rfl).trans ?_
    exact attRow_congr Q B (by show R * 512 + y.val = R * 512 + (0 + 1 * y.val); omega)
      (by show 2 * C + 1 = (C * 128 + (64 + 1 * d.val)) / 64; omega) (by show d.val = (C * 128 + (64 + 1 * d.val)) % 64; omega)
  rcases List.mem_cons.mp hp with rfl | hp
  · intro x
    obtain ⟨y, d, rfl⟩ : ∃ (y : Fin 512) (d : Fin 64), x = ix2 y d := ⟨x 0, x 1, eq_ix2 x⟩
    have hy := y.isLt
    have hd := d.isLt
    show k1_pay2 (F := Ideal) (View.ld x0 rLo) (View.ld x1 (rKlo g)) (View.ld x2 (rKlo g)) (View.ld x3 rB0) (ix2 y d)
      = attBlk Q B R C hR hC (rLo.emb (ix2 y d))
    rw [pay2_eq]
    simp only [shapeCast_self]
    refine (head_piece Q B x0 x1 x2 x3 R C 0 hR hC (by omega) ![0, 0] inb_S512x128_S512x64_0_0 (k1_off1 g) (k1_off1_inb g)
      ![0, 0, 0] inb_S2x512x2048_S1x512x2048_0_0_0 rfl rfl ek1_0 ek1_1 rfl rfl rfl h0 h1 h2 h3 y d
      ⟨R * 512 + y.val, by omega⟩ ⟨2 * C, by omega⟩ rfl rfl).trans ?_
    exact attRow_congr Q B (by show R * 512 + y.val = R * 512 + (0 + 1 * y.val); omega)
      (by show 2 * C = (C * 128 + (0 + 1 * d.val)) / 64; omega) (by show d.val = (C * 128 + (0 + 1 * d.val)) % 64; omega)
  · exact absurd hp List.not_mem_nil

/-! ## From blocks to the array

Grid point t = (hp, qi, bb) writes block (bb·4 + qi, hp) of the output; its query block is block (bb·4 + qi, hp) of the
projection array, its key and value blocks the block columns 8 + hp and 16 + hp, its bias block is block (hp, qi, 0) of the
bias array, and the body reads the key and value rows from bb·2048 on. So what it writes back is its block of ONE function
of the two arrays, and the 8 × 8 blocks tile the output array. -/

/-- The arrays region 1 is entered with, at their literal types. -/
private abbrev projArr1 (c : Dev nD) : S4096x3072.Idx → EReal := V c main_v5
private abbrev biasArr1 (c : Dev nD) : S16x2048x2048.Idx → EReal := V c main_v47

/-- The printed index maps and the body's row offsets over the grid, against the output window's block index. -/
private theorem blockIdx1 : ∀ t : Fin cfg1.N,
    win1_0.index t (0 : Fin 2) = win1_4.index t (0 : Fin 2) ∧ win1_0.index t (1 : Fin 2) = win1_4.index t (1 : Fin 2)
    ∧ win1_1.index t (0 : Fin 2) = 0 ∧ win1_1.index t (1 : Fin 2) = 8 + win1_4.index t (1 : Fin 2)
    ∧ win1_2.index t (0 : Fin 2) = 0 ∧ win1_2.index t (1 : Fin 2) = 16 + win1_4.index t (1 : Fin 2)
    ∧ win1_3.index t (0 : Fin 3) = win1_4.index t (1 : Fin 2) ∧ win1_3.index t (1 : Fin 3) = win1_4.index t (0 : Fin 2) % 4
    ∧ win1_3.index t (2 : Fin 3) = 0
    ∧ k1_off1 (grid1.coords t) 0 = win1_4.index t (0 : Fin 2) / 4 * 2048 ∧ k1_off1 (grid1.coords t) 1 = 0
    ∧ k1_off2 (grid1.coords t) 0 = win1_4.index t (0 : Fin 2) / 4 * 2048 ∧ k1_off2 (grid1.coords t) 1 = 64
    ∧ win1_4.index t (0 : Fin 2) < 8 ∧ win1_4.index t (1 : Fin 2) < 8 :=
  (by decide +kernel : ∀ t : Fin grid1.N, _)

/-- Every one of the 8 × 8 output blocks is some point's. -/
private theorem blockOnto1 : ∀ (q0 : Fin 8) (q1 : Fin 8), ∃ t : Fin cfg1.N,
    win1_4.index t (0 : Fin 2) = q0.val ∧ win1_4.index t (1 : Fin 2) = q1.val :=
  (by decide +kernel : ∀ (q0 : Fin 8) (q1 : Fin 8), ∃ t : Fin grid1.N, _)

/-- The query window's block at point t is block (R, C) of the projection array, (R, C) the output's block index there; -/
private theorem qBlk1_apply (c : Dev nD) (t : Fin cfg1.N) (y : Fin 512) (e : Fin 128) (r : Fin 4096) (col : Fin 3072)
    (hr : r.val = win1_4.index t (0 : Fin 2) * 512 + y.val) (hc : col.val = win1_4.index t (1 : Fin 2) * 128 + e.val) :
    (iblk1 V c 0 t : FVec Ideal S512x128 .bf16) (ix2 y e) = projArr1 V c (ix2 r col) := by
  obtain ⟨e0, e1, -⟩ := blockIdx1 t
  unfold iblk1
  rw [View.read_apply]
  show V c main_v5 _ = V c main_v5 _
  congr 1
  funext a
  apply Fin.ext
  match a with
  | ⟨0, _⟩ => show win1_0.index t (0 : Fin 2) * 512 + 1 * y.val = r.val; rw [e0, hr]; omega
  | ⟨1, _⟩ => show win1_0.index t (1 : Fin 2) * 128 + 1 * e.val = col.val; rw [e1, hc]; omega

/-- the key window's block is all rows of block column 8 + C, -/
private theorem kBlk1_apply (c : Dev nD) (t : Fin cfg1.N) (k : Fin 4096) (e : Fin 128) (col : Fin 3072)
    (hc : col.val = (8 + win1_4.index t (1 : Fin 2)) * 128 + e.val) :
    (iblk1 V c 1 t : FVec Ideal S4096x128 .bf16) (ix2 k e) = projArr1 V c (ix2 k col) := by
  obtain ⟨-, -, e0, e1, -⟩ := blockIdx1 t
  unfold iblk1
  rw [View.read_apply]
  show V c main_v5 _ = V c main_v5 _
  congr 1
  funext a
  apply Fin.ext
  match a with
  | ⟨0, _⟩ => show win1_1.index t (0 : Fin 2) * 4096 + 1 * k.val = k.val; rw [e0]; omega
  | ⟨1, _⟩ => show win1_1.index t (1 : Fin 2) * 128 + 1 * e.val = col.val; rw [e1, hc]; omega

/-- the value window's block all rows of block column 16 + C, -/
private theorem vBlk1_apply (c : Dev nD) (t : Fin cfg1.N) (k : Fin 4096) (e : Fin 128) (col : Fin 3072)
    (hc : col.val = (16 + win1_4.index t (1 : Fin 2)) * 128 + e.val) :
    (iblk1 V c 2 t : FVec Ideal S4096x128 .bf16) (ix2 k e) = projArr1 V c (ix2 k col) := by
  obtain ⟨-, -, -, -, e0, e1, -⟩ := blockIdx1 t
  unfold iblk1
  rw [View.read_apply]
  show V c main_v5 _ = V c main_v5 _
  congr 1
  funext a
  apply Fin.ext
  match a with
  | ⟨0, _⟩ => show win1_2.index t (0 : Fin 2) * 4096 + 1 * k.val = k.val; rw [e0]; omega
  | ⟨1, _⟩ => show win1_2.index t (1 : Fin 2) * 128 + 1 * e.val = col.val; rw [e1, hc]; omega

/-- and the bias window's block is heads 2C, 2C + 1, rows (R % 4)·512 … and every key of the bias array. -/
private theorem bBlk1_apply (c : Dev nD) (t : Fin cfg1.N) (a : Fin 2) (y : Fin 512) (k : Fin 2048) (h : Fin 16) (p : Fin 2048)
    (hh : h.val = 2 * win1_4.index t (1 : Fin 2) + a.val) (hp : p.val = win1_4.index t (0 : Fin 2) % 4 * 512 + y.val) :
    (iblk1 V c 3 t : FVec Ideal S2x512x2048 .bf16) (ix3 a y k) = biasArr1 V c (ix3 h p k) := by
  obtain ⟨-, -, -, -, -, -, e0, e1, e2, -⟩ := blockIdx1 t
  unfold iblk1
  rw [View.read_apply]
  show V c main_v47 _ = V c main_v47 _
  congr 1
  funext ax
  apply Fin.ext
  match ax with
  | ⟨0, _⟩ => show win1_3.index t (0 : Fin 3) * 2 + 1 * a.val = h.val; rw [e0, hh]; omega
  | ⟨1, _⟩ => show win1_3.index t (1 : Fin 3) * 512 + 1 * y.val = p.val; rw [e1, hp]; omega
  | ⟨2, _⟩ => show win1_3.index t (2 : Fin 3) * 2048 + 1 * k.val = k.val; rw [e2]; omega

/-- What point t writes back is its block of the whole-array function. -/
private theorem written1_eq (c : Dev nD) (t : Fin cfg1.N) :
    (dat1 V c).flushed 4 t = ((cfg1.win 4).blk t).view.read (Elt Ideal) (attArr (projArr1 V c) (biasArr1 V c)) := by
  show (cfg1.win 4).cut (grid1.coords t) ((dat1 V c).after 4 t) = _
  rw [after1_4]
  obtain ⟨-, -, -, -, -, -, -, -, -, k10, k11, k20, k21, hR, hC⟩ := blockIdx1 t
  funext j
  refine outBlock1 (projArr1 V c) (biasArr1 V c) (grid1.coords t) (iblk1 V c 0 t) (iblk1 V c 1 t) (iblk1 V c 2 t) (iblk1 V c 3 t)
    (win1_4.index t (0 : Fin 2)) (win1_4.index t (1 : Fin 2)) hR hC k10 k11 k20 k21
    (qBlk1_apply V c t) (kBlk1_apply V c t) (vBlk1_apply V c t) (bBlk1_apply V c t)
    ((cfg1.win 4).xinj (grid1.coords t) j) (((cfg1.win 4).blk t).view.emb j) ?_ ?_
  · show win1_4.index t (0 : Fin 2) * 512 + 1 * (j 0).val = win1_4.index t (0 : Fin 2) * 512 + (j 0).val
    omega
  · show win1_4.index t (1 : Fin 2) * 128 + 1 * (j 1).val = win1_4.index t (1 : Fin 2) * 128 + (j 1).val
    omega

/-- An index of the output array is in point t's block iff each coordinate is in the block's range on its axis. -/
private theorem mem_outBlk1 (t : Fin cfg1.N) (i : S4096x1024.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v48).slice (win1_4.rect t)).set ↔ _
  rw [View.set_slice_whole, Rect.mem_set_unit]
  exact Iff.rfl

/-- Row r, column c of the output is in the block of the point whose output block is (r / 512, c / 128). -/
private theorem covered1 (i : S4096x1024.Idx) : ∃ t : Fin cfg1.N, (cfg1.win 4).flush t = true ∧ i ∈ ((cfg1.win 4).blk t).view.set := by
  have hi0 : (i 0).val < 4096 := idx2_lt0 i
  have hi1 : (i 1).val < 1024 := idx2_lt1 i
  obtain ⟨t, e0, e1⟩ := blockOnto1 ⟨(i 0).val / 512, by omega⟩ ⟨(i 1).val / 128, by omega⟩
  have q0 : win1_4.index t (0 : Fin 2) = (i 0).val / 512 := e0
  have q1 : win1_4.index t (1 : Fin 2) = (i 1).val / 128 := e1
  refine ⟨t, flush1_4 t, ?_⟩
  rw [mem_outBlk1]
  intro a
  match a with
  | ⟨0, _⟩ => show win1_4.index t (0 : Fin 2) * 512 ≤ (i 0).val ∧ (i 0).val < win1_4.index t (0 : Fin 2) * 512 + 512; rw [q0]; omega
  | ⟨1, _⟩ => show win1_4.index t (1 : Fin 2) * 128 ≤ (i 1).val ∧ (i 1).val < win1_4.index t (1 : Fin 2) * 128 + 128; rw [q1]; omega

/-- So region 1's output array ends as the whole-array function of the two arrays it was entered with. -/
private theorem result1_eq (c : Dev nD) : (dat1 V c).arrAt 4 cfg1.N = attArr (projArr1 V c) (biasArr1 V c) :=
  (dat1 V c).arrAt_eq_of_cover 4 (attArr (projArr1 V c) (biasArr1 V c)) (fun t _ => written1_eq V c t) covered1

theorem arrAt1 (c : Dev nD) (r : Fin 4096) (h : Fin 16) (j : Fin 64) :
    ((dat1 V c).arrAt 4 cfg1.N : S4096x1024.Idx → EReal) (ix2 r (colO h j))
      = attRow (V c main_v5 : S4096x3072.Idx → EReal) (V c main_v47 : S16x2048x2048.Idx → EReal) r h j := by
  rw [result1_eq V c]
  exact attArr_apply _ _ r (colO h j) h j rfl

end Cert.KernelIdeal.Hand

end
-- ==== Proof.RVal.lean ====
/-
  The reference read at an index in the comparison's vocabulary: its attention output (before the last projection) at
  batch b, position s, head h, column j is the attention row of its three projections laid side by side and its bias
  array — dividing the scores by 8 is multiplying them by 1/8 on every extended real, and the maximum of −∞ and a
  maximum folded from −∞ is that maximum —; and its result is that array times the output weight.
-/
import proofs.«401496_j88184268521511_3_alg».proof.Proof.ValSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

open Cert.ReferenceIdeal.ReadP

namespace RVal
/-! ## Rows and columns -/

theorem batchOf_rowOf (b : Fin 2) (s : Fin 2048) : batchOf (rowOf b s) = b :=
  Fin.ext (by have := b.isLt; have := s.isLt; simp only [batchOf, rowOf]; omega)
theorem posOf_rowOf (b : Fin 2) (s : Fin 2048) : posOf (rowOf b s) = s :=
  Fin.ext (by have := b.isLt; have := s.isLt; simp only [posOf, rowOf]; omega)
theorem rowK_rowOf (b : Fin 2) (s k : Fin 2048) : rowK (rowOf b s) k = rowOf b k :=
  Fin.ext (by have := b.isLt; have := s.isLt; have := k.isLt; simp only [rowK, rowOf]; omega)

theorem ix3_congr {n0 n1 n2 : Nat} {a a' : Fin n0} {b b' : Fin n1} {c c' : Fin n2} (ha : a = a') (hb : b = b') (hc : c = c') :
    ix3 a b c = ix3 a' b' c' := by subst ha hb hc; rfl

/-! ## The three projections side by side, read at a row and a head's column -/

section qkv
variable (x0 : (⟨S2x2048x1024, .f32⟩ : BufTy).Contents (Elt Ideal)) (x1 x2 x3 : (⟨S1024x1024, .f32⟩ : BufTy).Contents (Elt Ideal))

theorem qkvRef_q (b : Fin 2) (s : Fin 2048) (h : Fin 16) (j : Fin 64) :
    qkvRef x0 x1 x2 x3 (ix2 (rowOf b s) (colQ h j)) = val_main_v0 (F := Ideal) x0 x1 (ix3 b s (colO h j)) := by
  have hc : (colQ h j).val < 1024 := by have := h.isLt; have := j.isLt; simp only [colQ]; omega
  unfold qkvRef
  refine (dif_pos hc).trans (congrArg (val_main_v0 (F := Ideal) x0 x1) (ix3_congr (batchOf_rowOf b s) (posOf_rowOf b s) (Fin.ext ?_)))
  simp only [colQ, colO]

theorem qkvRef_k (b : Fin 2) (s : Fin 2048) (h : Fin 16) (j : Fin 64) :
    qkvRef x0 x1 x2 x3 (ix2 (rowOf b s) (colK h j)) = val_main_v3 (F := Ideal) x0 x2 (ix3 b s (colO h j)) := by
  have hv : (colK h j).val = 1024 + h.val * 64 + j.val := rfl
  have hc1 : ¬ (colK h j).val < 1024 := by omega
  have hc2 : (colK h j).val < 2048 := by have := h.isLt; have := j.isLt; omega
  unfold qkvRef
  refine ((dif_neg hc1).trans (dif_pos hc2)).trans (congrArg (val_main_v3 (F := Ideal) x0 x2) (ix3_congr (batchOf_rowOf b s) (posOf_rowOf b s) (Fin.ext ?_)))
  show (colK h j).val - 1024 = (colO h j).val
  simp only [colK, colO]; omega

theorem qkvRef_v (b : Fin 2) (s : Fin 2048) (h : Fin 16) (j : Fin 64) :
    qkvRef x0 x1 x2 x3 (ix2 (rowOf b s) (colV h j)) = val_main_v6 (F := Ideal) x0 x3 (ix3 b s (colO h j)) := by
  have hv : (colV h j).val = 2048 + h.val * 64 + j.val := rfl
  have hc1 : ¬ (colV h j).val < 1024 := by omega
  have hc2 : ¬ (colV h j).val < 2048 := by omega
  unfold qkvRef
  refine ((dif_neg hc1).trans (dif_neg hc2)).trans (congrArg (val_main_v6 (F := Ideal) x0 x3) (ix3_congr (batchOf_rowOf b s) (posOf_rowOf b s) (Fin.ext ?_)))
  show (colV h j).val - 2048 = (colO h j).val
  simp only [colV, colO]; omega

end qkv

/-! ## The three words of the reference's float constants -/

/-- The word of −∞ is the bottom of the extended reals. -/
theorem word_negInf : Ideal.ofBits .f32 0xFF800000#32 = (⊥ : EReal) := by
  simp [Ideal.ofBits, Ideal.ieee]
/-- The word of 8.0. -/
theorem word_eight : Ideal.ofBits .f32 0x41000000#32 = ((8 : ℝ) : EReal) := by
  simp [Ideal.ofBits, Ideal.ieee, -EReal.coe_mul]; norm_num
/-- The word of 0.125. -/
theorem word_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (x : EReal) : Ideal.div x (Ideal.ofBits .f32 0x41000000#32) = x * Ideal.ofBits .f32 0x3E000000#32 := by
  rw [word_eight, word_eighth]; exact Ideal.div_coe (by norm_num) x

/-- The maximum of −∞ and anything is that thing. -/
theorem max_negInf (y : EReal) : max (Ideal.ofBits .f32 0xFF800000#32) y = y := by
  rw [word_negInf]; exact max_eq_right bot_le

/-! ## The reference's stages at coordinates -/

section stages
variable (x0 : (⟨S2x2048x1024, .f32⟩ : BufTy).Contents (Elt Ideal)) (x1 x2 x3 : (⟨S1024x1024, .f32⟩ : BufTy).Contents (Elt Ideal))
  (x5 : (⟨S32x16, .f32⟩ : BufTy).Contents (Elt Ideal))

/-- The reshape to heads and the transpose: head h's column j of row (b, s). -/
theorem idx_v1_v2 (b : Fin 2) (h : Fin 16) (s : Fin 2048) (j : Fin 64) :
    idx_main_v1 (idx_main_v2 (ix4 b h s j)) = ix3 b s (colO h j) := by
  have := b.isLt; have := h.isLt; have := s.isLt; have := j.isLt
  funext a; apply Fin.ext
  match a with
  | ⟨0, _⟩ => show ((((b.val * 2048 + s.val) * 16 + h.val) * 64 + j.val) / 2097152 = b.val); omega
  | ⟨1, _⟩ => show ((((b.val * 2048 + s.val) * 16 + h.val) * 64 + j.val) / 1024 % 2048 = s.val); omega
  | ⟨2, _⟩ => show ((((b.val * 2048 + s.val) * 16 + h.val) * 64 + j.val) % 1024 = h.val * 64 + j.val); omega

theorem v2_at (b : Fin 2) (h : Fin 16) (s : Fin 2048) (j : Fin 64) :
    val_main_v2 (F := Ideal) x0 x1 (ix4 b h s j) = val_main_v0 (F := Ideal) x0 x1 (ix3 b s (colO h j)) := by
  rw [val_main_v2_apply, val_main_v1_apply]
  exact congrArg (val_main_v0 (F := Ideal) x0 x1) (idx_v1_v2 b h s j)

theorem v5_at (b : Fin 2) (h : Fin 16) (s : Fin 2048) (j : Fin 64) :
    val_main_v5 (F := Ideal) x0 x2 (ix4 b h s j) = val_main_v3 (F := Ideal) x0 x2 (ix3 b s (colO h j)) := by
  rw [val_main_v5_apply, val_main_v4_apply]
  exact congrArg (val_main_v3 (F := Ideal) x0 x2) (idx_v1_v2 b h s j)

theorem v8_at (b : Fin 2) (h : Fin 16) (s : Fin 2048) (j : Fin 64) :
    val_main_v8 (F := Ideal) x0 x3 (ix4 b h s j) = val_main_v6 (F := Ideal) x0 x3 (ix3 b s (colO h j)) := by
  rw [val_main_v8_apply, val_main_v7_apply]
  exact congrArg (val_main_v6 (F := Ideal) x0 x3) (idx_v1_v2 b h s j)

/-- The scores before scaling: the dot over a head's 64 columns of a query row and a key row. -/
theorem v9_at (b : Fin 2) (h : Fin 16) (s k : Fin 2048) :
    val_main_v9 (F := Ideal) x0 x1 x2 (ix4 b h s k)
      = ∑ j : Fin 64, val_main_v0 (F := Ideal) x0 x1 (ix3 b s (colO h j)) * val_main_v3 (F := Ideal) x0 x2 (ix3 b k (colO h j)) := by
  rw [val_main_v9_apply]
  refine Finset.sum_congr rfl fun j _ => ?_
  have el : lidx_main_v9 (ix4 b h s k) j = ix4 b h s j := funext fun a => Fin.ext (by
    match a with | ⟨0, _⟩ => rfl | ⟨1, _⟩ => rfl | ⟨2, _⟩ => rfl | ⟨3, _⟩ => rfl)
  have er : ridx_main_v9 (ix4 b h s k) j = ix4 b h k j := funext fun a => Fin.ext (by
    match a with | ⟨0, _⟩ => rfl | ⟨1, _⟩ => rfl | ⟨2, _⟩ => rfl | ⟨3, _⟩ => rfl)
  rw [el, er, v2_at, v5_at]

/-- The bias, broadcast over the batch. -/
theorem v54_at (b : Fin 2) (h : Fin 16) (s k : Fin 2048) :
    val_main_v54 (F := Ideal) x5 (ix4 b h s k) = val_main_v52 (F := Ideal) x5 (ix3 h s k) := by
  rw [val_main_v54_apply, val_main_v53_apply]
  exact congrArg (val_main_v52 (F := Ideal) x5) (funext fun a => Fin.ext (by
    match a with | ⟨0, _⟩ => rfl | ⟨1, _⟩ => rfl | ⟨2, _⟩ => rfl))

/-- The scaled scores plus the bias are the comparison's score row. -/
theorem v55_at (b : Fin 2) (h : Fin 16) (s k : Fin 2048) :
    val_main_v55 (F := Ideal) x0 x1 x2 x5 (ix4 b h s k)
      = scoreRow (qkvRef x0 x1 x2 x3) (val_main_v52 (F := Ideal) x5) (rowOf b s) h k := by
  rw [val_main_v55_apply, val_main_v11_apply, val_main_v10_apply, val_main_cst_apply, v9_at, v54_at]
  simp only [Ideal.addf_def, Ideal.hostDivf_def, Ideal.ofBits_def]
  rw [div_eight]
  unfold scoreRow
  rw [posOf_rowOf]
  refine congrArg (fun t => t * Ideal.ofBits .f32 0x3E000000#32 + val_main_v52 (F := Ideal) x5 (ix3 h s k)) ?_
  refine Finset.sum_congr rfl fun j _ => ?_
  rw [rowK_rowOf, qkvRef_q, qkvRef_k]
end stages

section softmax
variable (x0 : (⟨S2x2048x1024, .f32⟩ : BufTy).Contents (Elt Ideal)) (x1 x2 x3 : (⟨S1024x1024, .f32⟩ : BufTy).Contents (Elt Ideal))
  (x5 : (⟨S32x16, .f32⟩ : BufTy).Contents (Elt Ideal))

/-- A reduced index (b, h, s) with the key coordinate k put back is (b, h, s, k). -/
theorem lift_ix3 (hr : Cert.ReferenceIdeal.S2x16x2048x2048.Reduces [3] Cert.ReferenceIdeal.S2x16x2048)
    (b : Fin 2) (h : Fin 16) (s : Fin 2048) (k : Fin (Cert.ReferenceIdeal.S2x16x2048x2048.size 3)) :
    hr.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- A maximum folded over the last axis, at (b, h, s): the fold over the 2048 keys. -/
theorem hostMax_at (y : FVec Ideal Cert.ReferenceIdeal.S2x16x2048x2048 .f32) (init : FVec Ideal Cert.ReferenceIdeal.S_ .f32)
    (h' : Cert.ReferenceIdeal.S2x16x2048x2048.ReducesTo [3] Cert.ReferenceIdeal.S2x16x2048) (hu : 0 < Cert.ReferenceIdeal.S_.numel)
    (b : Fin 2) (h : Fin 16) (s : Fin 2048) :
    Host.reduce (FloatOps.maximumf (F := Ideal) (φ := .f32)) y init h' hu (ix3 b h s)
      = (Finset.univ : Finset (Fin 2048)).fold max (init (Shape.Idx.first hu)) (fun k => y (ix4 b h s k)) := by
  have hr : Cert.ReferenceIdeal.S2x16x2048x2048.Reduces [3] Cert.ReferenceIdeal.S2x16x2048 := by decide
  rw [Host.reduce_eq_fold_single (FloatOps.maximumf (F := Ideal) (φ := .f32)) y init h' hr hu (ix3 b h s)]
  have hf : (y ∘ hr.lift (ix3 b h s)) = fun k : Fin 2048 => y (ix4 b h s k) :=
    funext fun k => congrArg y (lift_ix3 hr b h s k)
  rw [hf]
  rfl

/-- The row maximum of the reference: folded from −∞ over the 2048 keys. -/
theorem v56_at (b : Fin 2) (h : Fin 16) (s : Fin 2048) :
    val_main_v56 (F := Ideal) x0 x1 x2 x5 (ix3 b h s)
      = (Finset.univ : Finset (Fin 2048)).fold max (Ideal.ofBits .f32 0xFF800000#32)
          (fun k => val_main_v55 (F := Ideal) x0 x1 x2 x5 (ix4 b h s k)) := by
  unfold val_main_v56
  generalize val_main_v55 (F := Ideal) x0 x1 x2 x5 = y
  exact hostMax_at y _ _ _ b h s

/-- The reference's maximum of −∞ and its row maximum is the comparison's row maximum. -/
theorem v58_at (b : Fin 2) (h : Fin 16) (s : Fin 2048) :
    val_main_v58 (F := Ideal) x0 x1 x2 x5 (ix3 b h s)
      = rowMax (scoreRow (qkvRef x0 x1 x2 x3) (val_main_v52 (F := Ideal) x5) (rowOf b s) h) := by
  rw [val_main_v58_apply, val_main_v57_apply, val_main_cst_11_apply, v56_at]
  simp only [Ideal.maximumf_def, Ideal.ofBits_def]
  rw [max_negInf]
  unfold rowMax
  exact congrArg (fun f => Finset.fold max (Ideal.ofBits .f32 0xFF800000#32) f (Finset.univ : Finset (Fin 2048)))
    (funext fun k => v55_at x0 x1 x2 x3 x5 b h s k)

/-- The exponential of a score less the row maximum. -/
theorem v62_at (b : Fin 2) (h : Fin 16) (s k : Fin 2048) :
    val_main_v62 (F := Ideal) x0 x1 x2 x5 (ix4 b h s k)
      = Ideal.exp (scoreRow (qkvRef x0 x1 x2 x3) (val_main_v52 (F := Ideal) x5) (rowOf b s) h k
          - rowMax (scoreRow (qkvRef x0 x1 x2 x3) (val_main_v52 (F := Ideal) x5) (rowOf b s) h)) := by
  rw [val_main_v62_apply, val_main_v61_apply, val_main_v60_apply, val_main_v59_apply]
  have e : idx_main_v59 (idx_main_v60 (ix4 b h s k)) = ix3 b h s := funext fun a => Fin.ext (by
    match a with | ⟨0, _⟩ => rfl | ⟨1, _⟩ => rfl | ⟨2, _⟩ => rfl)
  rw [e, v55_at x0 x1 x2 x3 x5, v58_at x0 x1 x2 x3 x5]
  simp only [Ideal.hostUnary_exp_def, Ideal.subf_def]

/-- The softmax denominator: the sum of the exponentials over the 2048 keys. -/
theorem v63_at (b : Fin 2) (h : Fin 16) (s : Fin 2048) :
    val_main_v63 (F := Ideal) x0 x1 x2 x5 (ix3 b h s)
      = ∑ k : Fin 2048, Ideal.exp (scoreRow (qkvRef x0 x1 x2 x3) (val_main_v52 (F := Ideal) x5) (rowOf b s) h k
          - rowMax (scoreRow (qkvRef x0 x1 x2 x3) (val_main_v52 (F := Ideal) x5) (rowOf b s) h)) := by
  rw [val_main_v63_apply, val_main_cst_12_apply]
  simp only [Ideal.ofBits_def, Ideal.ofBits_zero_f32, zero_add]
  refine Finset.sum_congr rfl fun k _ => ?_
  have e : idx_main_v63 (ix3 b h s) k = ix4 b h s k := funext fun a => Fin.ext (by
    match a with | ⟨0, _⟩ => rfl | ⟨1, _⟩ => rfl | ⟨2, _⟩ => rfl | ⟨3, _⟩ => rfl)
  rw [e, v62_at x0 x1 x2 x3 x5]

/-- The softmax weights. -/
theorem v66_at (b : Fin 2) (h : Fin 16) (s k : Fin 2048) :
    val_main_v66 (F := Ideal) x0 x1 x2 x5 (ix4 b h s k)
      = softRow (scoreRow (qkvRef x0 x1 x2 x3) (val_main_v52 (F := Ideal) x5) (rowOf b s) h) k := by
  rw [val_main_v66_apply, val_main_v65_apply, val_main_v64_apply]
  have e : idx_main_v64 (idx_main_v65 (ix4 b h s k)) = ix3 b h s := funext fun a => Fin.ext (by
    match a with | ⟨0, _⟩ => rfl | ⟨1, _⟩ => rfl | ⟨2, _⟩ => rfl)
  rw [e, v62_at x0 x1 x2 x3 x5, v63_at x0 x1 x2 x3 x5]
  simp only [Ideal.hostDivf_def]
  rfl

end softmax

end RVal

open RVal

theorem ref_att (x0 : (⟨S2x2048x1024, .f32⟩ : BufTy).Contents (Elt Ideal)) (x1 x2 x3 : (⟨S1024x1024, .f32⟩ : BufTy).Contents (Elt Ideal))
    (x5 : (⟨S32x16, .f32⟩ : BufTy).Contents (Elt Ideal)) (b : Fin 2) (s : Fin 2048) (h : Fin 16) (j : Fin 64) :
    val_main_v69 (F := Ideal) x0 x1 x2 x3 x5 (ix3 b s (colO h j))
      = attRow (qkvRef x0 x1 x2 x3) (val_main_v52 (F := Ideal) x5) (rowOf b s) h j := by
  have e69 : idx_main_v68 (idx_main_v69 (ix3 b s (colO h j))) = ix4 b h s j := by
    have := b.isLt; have := h.isLt; have := s.isLt; have := j.isLt
    funext a; apply Fin.ext
    match a with
    | ⟨0, _⟩ => show (((b.val * 2048 + s.val) * 1024 + (h.val * 64 + j.val)) / 2097152 = b.val); omega
    | ⟨1, _⟩ => show (((b.val * 2048 + s.val) * 1024 + (h.val * 64 + j.val)) / 64 % 16 = h.val); omega
    | ⟨2, _⟩ => show (((b.val * 2048 + s.val) * 1024 + (h.val * 64 + j.val)) / 1024 % 2048 = s.val); omega
    | ⟨3, _⟩ => show (((b.val * 2048 + s.val) * 1024 + (h.val * 64 + j.val)) % 64 = j.val); omega
  rw [val_main_v69_apply, val_main_v68_apply, e69, val_main_v67_apply]
  unfold attRow
  refine Finset.sum_congr rfl fun k _ => ?_
  have el : lidx_main_v67 (ix4 b h s j) k = ix4 b h s k := funext fun a => Fin.ext (by
    match a with | ⟨0, _⟩ => rfl | ⟨1, _⟩ => rfl | ⟨2, _⟩ => rfl | ⟨3, _⟩ => rfl)
  have er : ridx_main_v67 (ix4 b h s j) k = ix4 b h k j := funext fun a => Fin.ext (by
    match a with | ⟨0, _⟩ => rfl | ⟨1, _⟩ => rfl | ⟨2, _⟩ => rfl | ⟨3, _⟩ => rfl)
  rw [el, er, v66_at x0 x1 x2 x3 x5, v8_at, rowK_rowOf, qkvRef_v]

theorem ref_out (x0 : (⟨S2x2048x1024, .f32⟩ : BufTy).Contents (Elt Ideal)) (x1 x2 x3 x4 : (⟨S1024x1024, .f32⟩ : BufTy).Contents (Elt Ideal))
    (x5 : (⟨S32x16, .f32⟩ : BufTy).Contents (Elt Ideal)) (b : Fin 2) (s : Fin 2048) (e : Fin 1024) :
    val_main_v70 (F := Ideal) x0 x1 x2 x3 x4 x5 (ix3 b s e)
      = ∑ d : Fin 1024, val_main_v69 (F := Ideal) x0 x1 x2 x3 x5 (ix3 b s d) * x4 (ix2 e d) := by
  rw [val_main_v70_apply]
  refine Finset.sum_congr rfl fun d _ => ?_
  have el : lidx_main_v70 (ix3 b s e) d = ix3 b s d := funext fun a => Fin.ext (by
    match a with | ⟨0, _⟩ => rfl | ⟨1, _⟩ => rfl | ⟨2, _⟩ => rfl)
  have er : ridx_main_v70 (ix3 b s e) d = ix2 e d := funext fun a => Fin.ext (by
    match a with | ⟨0, _⟩ => rfl | ⟨1, _⟩ => rfl)
  rw [el, er]

end Cert.KernelIdeal.Hand

end
-- ==== Proof.Bridge.lean ====
/-
  The kernel program's result is the reference's, as one function of the launch memory: array by array along the
  program — the projection array is the reference's three projections side by side; the attention output is the
  reference's, transposed back and reshaped; the result array is the reference's result.
-/
import proofs.«401496_j88184268521511_3_alg».proof.Proof.KHost
import proofs.«401496_j88184268521511_3_alg».proof.Proof.KVal02
import proofs.«401496_j88184268521511_3_alg».proof.Proof.KVal1
import proofs.«401496_j88184268521511_3_alg».proof.Proof.RVal

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

open Cert.ReferenceIdeal.ReadP

variable (m : (ℓ : Loc nD τ sig) → Buf (Elt Ideal) ℓ) (c : Dev nD)

/-! ## Indices: the reference's contraction reads, and a row's batch and position -/

private theorem lidx0 (b : Fin 2) (s : Fin 2048) (e k : Fin 1024) : lidx_main_v0 (ix3 b s e) k = ix3 b s k := by
  funext a; match a with | ⟨0, _⟩ => rfl | ⟨1, _⟩ => rfl | ⟨2, _⟩ => rfl
private theorem ridx0 (b : Fin 2) (s : Fin 2048) (e k : Fin 1024) : ridx_main_v0 (ix3 b s e) k = ix2 e k := by
  funext a; match a with | ⟨0, _⟩ => rfl | ⟨1, _⟩ => rfl
private theorem lidx3 (b : Fin 2) (s : Fin 2048) (e k : Fin 1024) : lidx_main_v3 (ix3 b s e) k = ix3 b s k := by
  funext a; match a with | ⟨0, _⟩ => rfl | ⟨1, _⟩ => rfl | ⟨2, _⟩ => rfl
private theorem ridx3 (b : Fin 2) (s : Fin 2048) (e k : Fin 1024) : ridx_main_v3 (ix3 b s e) k = ix2 e k := by
  funext a; match a with | ⟨0, _⟩ => rfl | ⟨1, _⟩ => rfl
private theorem lidx6 (b : Fin 2) (s : Fin 2048) (e k : Fin 1024) : lidx_main_v6 (ix3 b s e) k = ix3 b s k := by
  funext a; match a with | ⟨0, _⟩ => rfl | ⟨1, _⟩ => rfl | ⟨2, _⟩ => rfl
private theorem ridx6 (b : Fin 2) (s : Fin 2048) (e k : Fin 1024) : ridx_main_v6 (ix3 b s e) k = ix2 e k := by
  funext a; match a with | ⟨0, _⟩ => rfl | ⟨1, _⟩ => rfl

/-- Row b·2048+s lies in batch b … -/
private theorem batchOf_rowOf (b : Fin 2) (s : Fin 2048) : batchOf (rowOf b s) = b :=
  Fin.ext (by simp only [rowOf, batchOf]; have := b.isLt; have := s.isLt; omega)
/-- … at position s. -/
private theorem posOf_rowOf (b : Fin 2) (s : Fin 2048) : posOf (rowOf b s) = s :=
  Fin.ext (by simp only [rowOf, posOf]; have := b.isLt; have := s.isLt; omega)

/-- The side-by-side array of the reference's projections at row r, column e: the column's third picks the projection. -/
private theorem qkvRef_ix2 (x0 : (⟨S2x2048x1024, .f32⟩ : BufTy).Contents (Elt Ideal)) (x1 x2 x3 : (⟨S1024x1024, .f32⟩ : BufTy).Contents (Elt Ideal))
    (r : Fin 4096) (e : Fin 3072) :
    qkvRef x0 x1 x2 x3 (ix2 r e)
      = if h1 : e.val < 1024 then val_main_v0 (F := Ideal) x0 x1 (ix3 (batchOf r) (posOf r) ⟨e.val, h1⟩)
        else if h2 : e.val < 2048 then val_main_v3 (F := Ideal) x0 x2 (ix3 (batchOf r) (posOf r) ⟨e.val - 1024, by omega⟩)
        else val_main_v6 (F := Ideal) x0 x3 (ix3 (batchOf r) (posOf r) ⟨e.val - 2048, by have := e.isLt; omega⟩) := rfl

/-! ## The projection array -/

/-- Region 0's array at row r, column e is x's row (batch, position) against the weight row the column's third picks:
    the reference's projection of that third, whose contraction reads the same two elements term by term. -/
private theorem qkv_at (r : Fin 4096) (e : Fin 3072) :
    (W2 m c main_v5 : S4096x3072.Idx → EReal) (ix2 r e) = qkvRef (a0 m c) (a1 m c) (a2 m c) (a3 m c) (ix2 r e) := by
  have e2 : (W2 m c main_v5 : S4096x3072.Idx → EReal) = ((dat0 (E1 m) c).arrAt 2 cfg0.N : S4096x3072.Idx → EReal) := W2_self m c
  have hx : ∀ d : Fin 1024, (E1 m c main_v1 : S4096x1024.Idx → EReal) (ix2 r d) = a0 m c (ix3 (batchOf r) (posOf r) d) :=
    fun d => x_at m c r d
  rw [e2, arrAt0, qkvRef_ix2]
  unfold matProd
  by_cases h1 : e.val < 1024
  · have hw : ∀ d : Fin 1024, (E1 m c main_v4 : S1024x3072.Idx → EReal) (ix2 d e) = a1 m c (ix2 ⟨e.val, h1⟩ d) :=
      fun d => (w_at m c d e).trans (dif_pos h1)
    rw [dif_pos h1, val_main_v0_apply]
    show (_ : EReal) = _
    exact Finset.sum_congr rfl fun d _ => by rw [hx d, hw d, lidx0, ridx0]
  · by_cases h2 : e.val < 2048
    · have hw : ∀ d : Fin 1024, (E1 m c main_v4 : S1024x3072.Idx → EReal) (ix2 d e) = a2 m c (ix2 ⟨e.val - 1024, by omega⟩ d) :=
        fun d => (w_at m c d e).trans ((dif_neg h1).trans (dif_pos h2))
      rw [dif_neg h1, dif_pos h2, val_main_v3_apply]
      show (_ : EReal) = _
      exact Finset.sum_congr rfl fun d _ => by rw [hx d, hw d, lidx3, ridx3]
    · have hw : ∀ d : Fin 1024, (E1 m c main_v4 : S1024x3072.Idx → EReal) (ix2 d e)
          = a3 m c (ix2 ⟨e.val - 2048, by have := e.isLt; omega⟩ d) :=
        fun d => (w_at m c d e).trans ((dif_neg h1).trans (dif_neg h2))
      rw [dif_neg h1, dif_neg h2, val_main_v6_apply]
      show (_ : EReal) = _
      exact Finset.sum_congr rfl fun d _ => by rw [hx d, hw d, lidx6, ridx6]

theorem qkv_eq : (W2 m c main_v5 : S4096x3072.Idx → EReal) = qkvRef (a0 m c) (a1 m c) (a2 m c) (a3 m c) := by
  funext i
  rw [eq_ix2 i]
  exact qkv_at m c ⟨(i 0).val, idx2_lt0 i⟩ ⟨(i 1).val, idx2_lt1 i⟩

/-! ## The attention output -/

/-- No host stretch between regions 0 and 1 writes the projection array: region 1 is entered with region 0's. -/
private theorem E5_qkv : (E5 m c main_v5 : S4096x3072.Idx → EReal) = qkvRef (a0 m c) (a1 m c) (a2 m c) (a3 m c) := by
  have h : W5 m c main_v5 = W2 m c main_v5 :=
    (W5_of m c main_v5 (by decide)).trans ((W4_of m c main_v5 (by decide)).trans (W3_of m c main_v5 (by decide)))
  exact (show (E5 m c main_v5 : S4096x3072.Idx → EReal) = (W2 m c main_v5 : S4096x3072.Idx → EReal) from h).trans (qkv_eq m c)

theorem att_eq (r : Fin 4096) (d : Fin 1024) :
    (W6 m c main_v48 : S4096x1024.Idx → EReal) (ix2 r d)
      = val_main_v69 (F := Ideal) (a0 m c) (a1 m c) (a2 m c) (a3 m c) (a5 m c) (ix3 (batchOf r) (posOf r) d) := by
  obtain ⟨h, j, rfl⟩ := colO_surj d
  have e6 : (W6 m c main_v48 : S4096x1024.Idx → EReal) = ((dat1 (E5 m) c).arrAt 4 cfg1.N : S4096x1024.Idx → EReal) := W6_self m c
  have e47 : (E5 m c main_v47 : S16x2048x2048.Idx → EReal) = val_main_v52 (F := Ideal) (a5 m c) := bias_eq m c
  rw [e6, arrAt1, E5_qkv, e47, ref_att, ← rowOf_surj r]

/-! ## The output projection and the result -/

theorem y_eq (r : Fin 4096) (e : Fin 1024) :
    (W8 m c main_v51 : S4096x1024.Idx → EReal) (ix2 r e)
      = val_main_v70 (F := Ideal) (a0 m c) (a1 m c) (a2 m c) (a3 m c) (a4 m c) (a5 m c) (ix3 (batchOf r) (posOf r) e) := by
  have e8 : (W8 m c main_v51 : S4096x1024.Idx → EReal) = ((dat2 (E7 m) c).arrAt 2 cfg2.N : S4096x1024.Idx → EReal) := W8_self m c
  have e48 : (E7 m c main_v48 : S4096x1024.Idx → EReal) = (W6 m c main_v48 : S4096x1024.Idx → EReal) := W7_of m c main_v48 (by decide)
  have hwo : ∀ d : Fin 1024, (E7 m c main_v50 : S1024x1024.Idx → EReal) (ix2 d e) = a4 m c (ix2 e d) := fun d => wo_at m c d e
  rw [e8, arrAt2, ref_out]
  unfold matProd
  show (_ : EReal) = _
  exact Finset.sum_congr rfl fun d _ => by rw [e48, att_eq, hwo d]

/-- The kernel program's result buffer after its last item holds the reference's result term of the same arguments. -/
theorem result_eq :
    (W9 m c main_v52 : S2x2048x1024.Idx → EReal)
      = val_main_v70 (F := Ideal) (a0 m c) (a1 m c) (a2 m c) (a3 m c) (a4 m c) (a5 m c) := by
  funext i
  rw [eq_ix3 i]
  have h := y_eq m c (rowOf ⟨(i 0).val, (i 0).isLt⟩ ⟨(i 1).val, (i 1).isLt⟩) ⟨(i 2).val, (i 2).isLt⟩
  rw [batchOf_rowOf, posOf_rowOf] at h
  exact (out_at m c ⟨(i 0).val, (i 0).isLt⟩ ⟨(i 1).val, (i 1).isLt⟩ ⟨(i 2).val, (i 2).isLt⟩).trans h

end Cert.KernelIdeal.Hand

end
-- ==== Proof.lean ====
/-
  The certificate's claim. The program is T5 attention: a projection x·[Wq; Wk; Wv]ᵀ into one array, per head and batch
  softmax(q·kᵀ/8 + relative-position bias)·v, and the output projection with Wo, as three pipelined kernel regions among
  host operations; the reference is the same mathematics in jnp.
  Frames: @main run as nine segments (three regions, six host stretches) terminates without a fault and leaves the six
  argument arrays as launched — proved once at any float instance, used for the word-level program and for its reading at
  the ideal instance; the reference has no kernel and its frame is its run with the result dropped.
  Values, at the ideal instance: the kernel program's result buffer ends at a function of the launch memory that is,
  array by array, the reference's result term — a tiled matrix product is the whole product, multiplying a score by 1/8 is
  dividing it by 8 on every extended real, the maximum of −∞ and a maximum folded from −∞ is that maximum, and the bias
  gathered head-major from the transposed table is the bias gathered from the table and transposed.
  The idealization rewrote nothing, so there is nothing to preserve.
-/
import proofs.«401496_j88184268521511_3_alg».proof.Defs
import proofs.«401496_j88184268521511_3_alg».proof.Proof.Gen.Kernel
import proofs.«401496_j88184268521511_3_alg».proof.Proof.Gen.KernelIdeal
import proofs.«401496_j88184268521511_3_alg».proof.Proof.Gen.ReferenceIdeal
import proofs.«401496_j88184268521511_3_alg».proof.Proof.Gen.Pre_finite_inputs
import proofs.«401496_j88184268521511_3_alg».proof.Proof.KRun
import proofs.«401496_j88184268521511_3_alg».proof.Proof.Run
import proofs.«401496_j88184268521511_3_alg».proof.Proof.Bridge
import proofs.«401496_j88184268521511_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments the two programs end with the same result: the kernel program's result
    buffer at its function of the launch memory, which is the reference's result term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W9 m c Cert.KernelIdeal.main_v52, Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v70_eq, (hagree c).1, (hagree c).2.1, (hagree c).2.2.1, (hagree c).2.2.2.1,
    (hagree c).2.2.2.2.1, (hagree c).2.2.2.2.2]
  exact (Cert.KernelIdeal.Hand.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
